-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x512x512 : Shape := ⟨4, ![64, 3, 512, 512]⟩
abbrev S_ : Shape := ⟨0, ![]⟩

class Facts : Prop where
  bcast_S_S64x3x512x512 : S_.BroadcastsInDim S64x3x512x512 (![] : Fin 0 → Fin S64x3x512x512.rank)
  reducesTo_S64x3x512x512_S_d0_1_2_3 : S64x3x512x512.ReducesTo [0, 1, 2, 3] S_
  h_S_ : 0 < S_.numel

variable [Facts]

def fn {F : FTy → Type} [FloatOps F] (main_arg0 : FVec F S64x3x512x512 .f32) (main_arg1 : FVec F S64x3x512x512 .f32) : IVec S_ 1 :=
  let main_v0 : FVec F S64x3x512x512 .f32 := Host.absf main_arg0
  let main_cst : FVec F S_ .f32 := constant S_ .f32 0x7F800000#32
  let main_v1 : FVec F S64x3x512x512 .f32 := broadcastInDim S64x3x512x512 ![] bcast_S_S64x3x512x512 main_cst
  let main_v2 : IVec S64x3x512x512 1 := cmpf .olt main_v0 main_v1
  let main_c : IVec S_ 1 := constantI S_ 1 1#1
  let main_v3 : IVec S_ 1 := (fun x v => Host.reduce IntOp.andi x v reducesTo_S64x3x512x512_S_d0_1_2_3 h_S_) main_v2 main_c
  let main_v4 : FVec F S64x3x512x512 .f32 := Host.absf main_arg1
  let main_cst_0 : FVec F S_ .f32 := constant S_ .f32 0x7F800000#32
  let main_v5 : FVec F S64x3x512x512 .f32 := broadcastInDim S64x3x512x512 ![] bcast_S_S64x3x512x512 main_cst_0
  let main_v6 : IVec S64x3x512x512 1 := cmpf .olt main_v4 main_v5
  let main_c_1 : IVec S_ 1 := constantI S_ 1 1#1
  let main_v7 : IVec S_ 1 := (fun x v => Host.reduce IntOp.andi x v reducesTo_S64x3x512x512_S_d0_1_2_3 h_S_) main_v6 main_c_1
  let main_v8 : IVec S_ 1 := andi main_v3 main_v7
  main_v8
-- ==== Kernel.lean ====
abbrev S64x3x512x512 : Shape := ⟨4, ![64, 3, 512, 512]⟩
abbrev S64x3 : Shape := ⟨2, ![64, 3]⟩
abbrev S8x3x64x512 : Shape := ⟨4, ![8, 3, 64, 512]⟩
abbrev S8x3 : Shape := ⟨2, ![8, 3]⟩
abbrev S8x3x64 : Shape := ⟨3, ![8, 3, 64]⟩
abbrev S8x3x64x1 : Shape := ⟨4, ![8, 3, 64, 1]⟩
abbrev S8x3x1 : Shape := ⟨3, ![8, 3, 1]⟩
abbrev S8x3x1x1 : Shape := ⟨4, ![8, 3, 1, 1]⟩
abbrev S_ : Shape := ⟨0, ![]⟩
abbrev S3 : Shape := ⟨1, ![3]⟩
abbrev S1 : Shape := ⟨1, ![1]⟩

abbrev nBuf : Space → Nat
  | .hbm => 29
  | .vmem => 11
  | .smem => 0
  | _ => 0

abbrev bufTy : (tb : Table) → Fin (tcTables nBuf tb) → BufTy
  | .hbm, ⟨0, _⟩ => ⟨S64x3x512x512, .f32⟩
  | .hbm, ⟨1, _⟩ => ⟨S64x3x512x512, .f32⟩
  | .hbm, ⟨2, _⟩ => ⟨S64x3, .f32⟩
  | .hbm, ⟨3, _⟩ => ⟨S64x3, .f32⟩
  | .hbm, ⟨4, _⟩ => ⟨S_, .f32⟩
  | .hbm, ⟨5, _⟩ => ⟨S3, .f32⟩
  | .hbm, ⟨6, _⟩ => ⟨S_, .f32⟩
  | .hbm, ⟨7, _⟩ => ⟨S3, .f32⟩
  | .hbm, ⟨8, _⟩ => ⟨S_, .f32⟩
  | .hbm, ⟨9, _⟩ => ⟨S3, .f32⟩
  | .hbm, ⟨10, _⟩ => ⟨S3, .i1⟩
  | .hbm, ⟨11, _⟩ => ⟨S_, .f32⟩
  | .hbm, ⟨12, _⟩ => ⟨S3, .f32⟩
  | .hbm, ⟨13, _⟩ => ⟨S3, .i1⟩
  | .hbm, ⟨14, _⟩ => ⟨S_, .f32⟩
  | .hbm, ⟨15, _⟩ => ⟨S_, .f32⟩
  | .hbm, ⟨16, _⟩ => ⟨S3, .f32⟩
  | .hbm, ⟨17, _⟩ => ⟨S3, .f32⟩
  | .hbm, ⟨18, _⟩ => ⟨S3, .f32⟩
  | .hbm, ⟨19, _⟩ => ⟨S_, .f32⟩
  | .hbm, ⟨20, _⟩ => ⟨S_, .f32⟩
  | .hbm, ⟨21, _⟩ => ⟨S3, .f32⟩
  | .hbm, ⟨22, _⟩ => ⟨S3, .f32⟩
  | .hbm, ⟨23, _⟩ => ⟨S1, .f32⟩
  | .hbm, ⟨24, _⟩ => ⟨S_, .f32⟩
  | .hbm, ⟨25, _⟩ => ⟨S1, .f32⟩
  | .hbm, ⟨26, _⟩ => ⟨S_, .f32⟩
  | .hbm, ⟨27, _⟩ => ⟨S1, .f32⟩
  | .hbm, ⟨28, _⟩ => ⟨S_, .f32⟩
  | .local _ .vmem, ⟨0, _⟩ => ⟨S8x3x64x512, .f32⟩
  | .local _ .vmem, ⟨1, _⟩ => ⟨S8x3x64x512, .f32⟩
  | .local _ .vmem, ⟨2, _⟩ => ⟨S8x3x64x512, .f32⟩
  | .local _ .vmem, ⟨3, _⟩ => ⟨S8x3x64x512, .f32⟩
  | .local _ .vmem, ⟨4, _⟩ => ⟨S8x3, .f32⟩
  | .local _ .vmem, ⟨5, _⟩ => ⟨S8x3, .f32⟩
  | .local _ .vmem, ⟨6, _⟩ => ⟨S8x3, .f32⟩
  | .local _ .vmem, ⟨7, _⟩ => ⟨S8x3, .f32⟩
  | .local _ .vmem, ⟨8, _⟩ => ⟨S8x3, .f32⟩
  | .local _ .vmem, ⟨9, _⟩ => ⟨S8x3, .f32⟩
  | .local _ .vmem, ⟨10, _⟩ => ⟨S8x3, .f32⟩
  | _, _ => ⟨S64x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_cst_3 : Ref sig .tc := ⟨.hbm, 14, rfl⟩
abbrev main_call0_v0 : Ref sig .tc := ⟨.hbm, 15, rfl⟩
abbrev main_call0_v1 : Ref sig .tc := ⟨.hbm, 16, rfl⟩
abbrev main_v7 : Ref sig .tc := ⟨.hbm, 17, rfl⟩
abbrev main_v8 : Ref sig .tc := ⟨.hbm, 18, rfl⟩
abbrev main_cst_4 : Ref sig .tc := ⟨.hbm, 19, rfl⟩
abbrev main_call1_v0 : Ref sig .tc := ⟨.hbm, 20, rfl⟩
abbrev main_call1_v1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v45 : BitVec 1 := Scalar.cmpi .eq arg1 c7_i32
  let v46 : BitVec 32 := Scalar.extui v45
  let c0_i32_27 : BitVec 32 := 0#32
  let v47 : BitVec 1 := Scalar.cmpi .ne v46 c0_i32_27
  v47

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x3x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x3x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S8x3_S8x3_0_0 : ∀ a, (![0, 0] : Fin 2 → Nat) a + S8x3.size a ≤ S8x3.size a
  h_S8x3 : 0 < S8x3.numel
  shapeCasts_S8x3_S8x3 : S8x3.ShapeCasts S8x3
  inb_S8x3x64x512_S8x3x64x512_0_0_0_0 : ∀ a, (![0, 0, 0, 0] : Fin 4 → Nat) a + S8x3x64x512.size a ≤ S8x3x64x512.size a
  h_S8x3x64x512 : 0 < S8x3x64x512.numel
  natLt_1_32 : 1 < 32
  reduces_S8x3x64x512_S8x3x64 : S8x3x64x512.Reduces [3] S8x3x64
  shapeCasts_S8x3x64_S8x3x64x1 : S8x3x64.ShapeCasts S8x3x64x1
  reduces_S8x3x64x1_S8x3x1 : S8x3x64x1.Reduces [2] S8x3x1
  shapeCasts_S8x3x1_S8x3x1x1 : S8x3x1.ShapeCasts S8x3x1x1
  shapeCasts_S8x3x1x1_S8x3 : S8x3x1x1.ShapeCasts S8x3
  reducesTo_S64x3_S3_d0 : S64x3.ReducesTo [0] S3
  h_S_ : 0 < S_.numel
  bcast_S_S3 : S_.BroadcastsInDim S3 (![] : Fin 0 → Fin S3.rank)
  slices_S3_S1_0 : S3.Slices ![0] S1
  shapeCasts_S1_S_ : S1.ShapeCasts S_
  slices_S3_S1_1 : S3.Slices ![1] S1
  slices_S3_S1_2 : S3.Slices ![2] S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x3x64x512.size a ≤ S64x3x512x512.size a
  hwx0_0 : ∀ i : grid0.Coords, EltTy.bits .f32 = 32 ∨ (Rect.block (s := S64x3x512x512) S8x3x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x3x64x512.size a ≤ S64x3x512x512.size a
  hwx0_1 : ∀ i : grid0.Coords, EltTy.bits .f32 = 32 ∨ (Rect.block (s := S64x3x512x512) S8x3x64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x3.size a ≤ S64x3.size a
  hwx0_2 : ∀ i : grid0.Coords, EltTy.bits .f32 = 32 ∨ (Rect.block (s := S64x3) S8x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x3.size a ≤ S64x3.size a
  hwx0_3 : ∀ i : grid0.Coords, EltTy.bits .f32 = 32 ∨ (Rect.block (s := S64x3) S8x3.size (cc0_transform_3 i) (hinb0_3 i)).WholeWords (EltTy.packing .f32)

variable [Facts₀]

abbrev win0_0 : Pipeline.Window sig grid0 :=
  Pipeline.Window.ofSpec (Memref.whole main_arg0) S8x3x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x3x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S8x3.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S8x3.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S64x3x512x512 : Shape := ⟨4, ![64, 3, 512, 512]⟩
abbrev S_ : Shape := ⟨0, ![]⟩
abbrev S64x3 : Shape := ⟨2, ![64, 3]⟩
abbrev S3 : Shape := ⟨1, ![3]⟩
abbrev S1 : Shape := ⟨1, ![1]⟩

abbrev nBuf : Space → Nat
  | .hbm => 74
  | .vmem => 0
  | .smem => 0
  | _ => 0

abbrev bufTy : (tb : Table) → Fin (tcTables nBuf tb) → BufTy
  | .hbm, ⟨0, _⟩ => ⟨S64x3x512x512, .f32⟩
  | .hbm, ⟨1, _⟩ => ⟨S64x3x512x512, .f32⟩
  | .hbm, ⟨2, _⟩ => ⟨S_, .f32⟩
  | .hbm, ⟨3, _⟩ => ⟨S64x3x512x512, .f32⟩
  | .hbm, ⟨4, _⟩ => ⟨S64x3x512x512, .i1⟩
  | .hbm, ⟨5, _⟩ => ⟨S64x3x512x512, .f32⟩
  | .hbm, ⟨6, _⟩ => ⟨S_, .f32⟩
  | .hbm, ⟨7, _⟩ => ⟨S64x3x512x512, .f32⟩
  | .hbm, ⟨8, _⟩ => ⟨S64x3x512x512, .i1⟩
  | .hbm, ⟨9, _⟩ => ⟨S64x3x512x512, .f32⟩
  | .hbm, ⟨10, _⟩ => ⟨S64x3x512x512, .f32⟩
  | .hbm, ⟨11, _⟩ => ⟨S_, .f32⟩
  | .hbm, ⟨12, _⟩ => ⟨S64x3, .f32⟩
  | .hbm, ⟨13, _⟩ => ⟨S64x3x512x512, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S64x3x512x512, .f32⟩
  | .hbm, ⟨18, _⟩ => ⟨S64x3x512x512, .f32⟩
  | .hbm, ⟨19, _⟩ => ⟨S_, .f32⟩
  | .hbm, ⟨20, _⟩ => ⟨S64x3x512x512, .f32⟩
  | .hbm, ⟨21, _⟩ => ⟨S64x3x512x512, .f32⟩
  | .hbm, ⟨22, _⟩ => ⟨S_, .f32⟩
  | .hbm, ⟨23, _⟩ => ⟨S64x3, .f32⟩
  | .hbm, ⟨24, _⟩ => ⟨S_, .f32⟩
  | .hbm, ⟨25, _⟩ => ⟨S64x3, .f32⟩
  | .hbm, ⟨26, _⟩ => ⟨S_, .f32⟩
  | .hbm, ⟨27, _⟩ => ⟨S64x3, .f32⟩
  | .hbm, ⟨28, _⟩ => ⟨S64x3, .i1⟩
  | .hbm, ⟨29, _⟩ => ⟨S_, .f32⟩
  | .hbm, ⟨30, _⟩ => ⟨S64x3, .f32⟩
  | .hbm, ⟨31, _⟩ => ⟨S64x3, .i1⟩
  | .hbm, ⟨32, _⟩ => ⟨S_, .f32⟩
  | .hbm, ⟨33, _⟩ => ⟨S64x3, .f32⟩
  | .hbm, ⟨34, _⟩ => ⟨S64x3, .i1⟩
  | .hbm, ⟨35, _⟩ => ⟨S_, .f32⟩
  | .hbm, ⟨36, _⟩ => ⟨S_, .f32⟩
  | .hbm, ⟨37, _⟩ => ⟨S64x3, .f32⟩
  | .hbm, ⟨38, _⟩ => ⟨S64x3, .f32⟩
  | .hbm, ⟨39, _⟩ => ⟨S64x3, .f32⟩
  | .hbm, ⟨40, _⟩ => ⟨S_, .f32⟩
  | .hbm, ⟨41, _⟩ => ⟨S_, .f32⟩
  | .hbm, ⟨42, _⟩ => ⟨S64x3, .f32⟩
  | .hbm, ⟨43, _⟩ => ⟨S64x3, .f32⟩
  | .hbm, ⟨44, _⟩ => ⟨S_, .f32⟩
  | .hbm, ⟨45, _⟩ => ⟨S_, .f32⟩
  | .hbm, ⟨46, _⟩ => ⟨S64x3, .f32⟩
  | .hbm, ⟨47, _⟩ => ⟨S64x3, .f32⟩
  | .hbm, ⟨48, _⟩ => ⟨S_, .f32⟩
  | .hbm, ⟨49, _⟩ => ⟨S3, .f32⟩
  | .hbm, ⟨50, _⟩ => ⟨S64x3, .f32⟩
  | .hbm, ⟨51, _⟩ => ⟨S_, .f32⟩
  | .hbm, ⟨52, _⟩ => ⟨S3, .f32⟩
  | .hbm, ⟨53, _⟩ => ⟨S_, .f32⟩
  | .hbm, ⟨54, _⟩ => ⟨S3, .f32⟩
  | .hbm, ⟨55, _⟩ => ⟨S3, .i1⟩
  | .hbm, ⟨56, _⟩ => ⟨S_, .f32⟩
  | .hbm, ⟨57, _⟩ => ⟨S3, .f32⟩
  | .hbm, ⟨58, _⟩ => ⟨S3, .i1⟩
  | .hbm, ⟨59, _⟩ => ⟨S_, .f32⟩
  | .hbm, ⟨60, _⟩ => ⟨S_, .f32⟩
  | .hbm, ⟨61, _⟩ => ⟨S3, .f32⟩
  | .hbm, ⟨62, _⟩ => ⟨S3, .f32⟩
  | .hbm, ⟨63, _⟩ => ⟨S3, .f32⟩
  | .hbm, ⟨64, _⟩ => ⟨S_, .f32⟩
  | .hbm, ⟨65, _⟩ => ⟨S_, .f32⟩
  | .hbm, ⟨66, _⟩ => ⟨S3, .f32⟩
  | .hbm, ⟨67, _⟩ => ⟨S3, .f32⟩
  | .hbm, ⟨68, _⟩ => ⟨S1, .f32⟩
  | .hbm, ⟨69, _⟩ => ⟨S_, .f32⟩
  | .hbm, ⟨70, _⟩ => ⟨S1, .f32⟩
  | .hbm, ⟨71, _⟩ => ⟨S_, .f32⟩
  | .hbm, ⟨72, _⟩ => ⟨S1, .f32⟩
  | .hbm, ⟨73, _⟩ => ⟨S_, .f32⟩
  | _, _ => ⟨S64x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_cst_3 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v9 : Ref sig .tc := ⟨.hbm, 21, rfl⟩
abbrev main_cst_4 : Ref sig .tc := ⟨.hbm, 22, rfl⟩
abbrev main_v10 : Ref sig .tc := ⟨.hbm, 23, rfl⟩
abbrev main_cst_5 : Ref sig .tc := ⟨.hbm, 24, rfl⟩
abbrev main_v11 : Ref sig .tc := ⟨.hbm, 25, rfl⟩
abbrev main_cst_6 : Ref sig .tc := ⟨.hbm, 26, rfl⟩
abbrev main_v12 : Ref sig .tc := ⟨.hbm, 27, rfl⟩
abbrev main_v13 : Ref sig .tc := ⟨.hbm, 28, rfl⟩
abbrev main_cst_7 : Ref sig .tc := ⟨.hbm, 29, rfl⟩
abbrev main_v14 : Ref sig .tc := ⟨.hbm, 30, rfl⟩
abbrev main_v15 : Ref sig .tc := ⟨.hbm, 31, rfl⟩
abbrev main_cst_8 : Ref sig .tc := ⟨.hbm, 32, rfl⟩
abbrev main_v16 : Ref sig .tc := ⟨.hbm, 33, rfl⟩
abbrev main_v17 : Ref sig .tc := ⟨.hbm, 34, rfl⟩
abbrev main_cst_9 : Ref sig .tc := ⟨.hbm, 35, rfl⟩
abbrev main_call1_v0 : Ref sig .tc := ⟨.hbm, 36, rfl⟩
abbrev main_call1_v1 : Ref sig .tc := ⟨.hbm, 37, rfl⟩
abbrev main_v18 : Ref sig .tc := ⟨.hbm, 38, rfl⟩
abbrev main_v19 : Ref sig .tc := ⟨.hbm, 39, rfl⟩
abbrev main_cst_10 : Ref sig .tc := ⟨.hbm, 40, rfl⟩
abbrev main_call2_v0 : Ref sig .tc := ⟨.hbm, 41, rfl⟩
abbrev main_call2_v1 : Ref sig .tc := ⟨.hbm, 42, rfl⟩
abbrev main_v20 : Ref sig .tc := ⟨.hbm, 43, rfl⟩
abbrev main_cst_11 : Ref sig .tc := ⟨.hbm, 44, rfl⟩
abbrev main_call3_v0 : Ref sig .tc := ⟨.hbm, 45, rfl⟩
abbrev main_call3_v1 : Ref sig .tc := ⟨.hbm, 46, rfl⟩
abbrev main_v21 : Ref sig .tc := ⟨.hbm, 47, rfl⟩
abbrev main_cst_12 : Ref sig .tc := ⟨.hbm, 48, rfl⟩
abbrev main_v22 : Ref sig .tc := ⟨.hbm, 49, rfl⟩
abbrev main_v23 : Ref sig .tc := ⟨.hbm, 50, rfl⟩
abbrev main_cst_13 : Ref sig .tc := ⟨.hbm, 51, rfl⟩
abbrev main_v24 : Ref sig .tc := ⟨.hbm, 52, rfl⟩
abbrev main_cst_14 : Ref sig .tc := ⟨.hbm, 53, rfl⟩
abbrev main_v25 : Ref sig .tc := ⟨.hbm, 54, rfl⟩
abbrev main_v26 : Ref sig .tc := ⟨.hbm, 55, rfl⟩
abbrev main_cst_15 : Ref sig .tc := ⟨.hbm, 56, rfl⟩
abbrev main_v27 : Ref sig .tc := ⟨.hbm, 57, rfl⟩
abbrev main_v28 : Ref sig .tc := ⟨.hbm, 58, rfl⟩
abbrev main_cst_16 : Ref sig .tc := ⟨.hbm, 59, rfl⟩
abbrev main_call4_v0 : Ref sig .tc := ⟨.hbm, 60, rfl⟩
abbrev main_call4_v1 : Ref sig .tc := ⟨.hbm, 61, rfl⟩
abbrev main_v29 : Ref sig .tc := ⟨.hbm, 62, rfl⟩
abbrev main_v30 : Ref sig .tc := ⟨.hbm, 63, rfl⟩
abbrev main_cst_17 : Ref sig .tc := ⟨.hbm, 64, rfl⟩
abbrev main_call5_v0 : Ref sig .tc := ⟨.hbm, 65, rfl⟩
abbrev main_call5_v1 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩

abbrev nD : Nat := 1
abbrev τ : Topo := Topo.v7x

variable {F : FTy → Type} [FloatOps F]

class Facts₀ : Prop where
  bcast_S_S64x3x512x512 : S_.BroadcastsInDim S64x3x512x512 (![] : Fin 0 → Fin S64x3x512x512.rank)
  reducesTo_S64x3x512x512_S64x3_d2_3 : S64x3x512x512.ReducesTo [2, 3] S64x3
  h_S_ : 0 < S_.numel
  bcast_S_S64x3 : S_.BroadcastsInDim S64x3 (![] : Fin 0 → Fin S64x3.rank)
  reducesTo_S64x3_S3_d0 : S64x3.ReducesTo [0] S3
  bcast_S_S3 : S_.BroadcastsInDim S3 (![] : Fin 0 → Fin S3.rank)
  slices_S3_S1_0 : S3.Slices ![0] S1
  shapeCasts_S1_S_ : S1.ShapeCasts S_
  slices_S3_S1_1 : S3.Slices ![1] S1
  slices_S3_S1_2 : S3.Slices ![2] S1

variable [Facts₀]

class Facts : Prop extends Facts₀ where

variable [Facts]
-- ==== Proof.Spec.lean ====
/-
  The intersection-over-union of thresholded masks, as mathematics, over literal shapes and free of either program.

  For arrays x, y of shape [64, 3, 512, 512] and a pair (b, ch): threshold both at one half (a 0/1 indicator),
  sum over the 512 × 512 positions the product (the intersection's size), the larger of the two indicators (the
  union's size) and y's indicator alone (the target's size); from the three sums a quotient guarded against an empty
  union and against an empty target, and a flag for a target that is not empty. The finishing step, shared word for
  word by both programs, averages the quotients over the 64 batch entries per channel, counting only flagged pairs.
-/
import Idealize.ShloMosaic.PureOps.Ideal.Laws
import Idealize.ShloMosaic.Lib.ValueIdx

noncomputable section

namespace Cert.MaskIoU

open Idealize.ShloMosaic Idealize.ShloMosaic.ValueIdx

/-- The whole arrays [64, 3, 512, 512] and the per-pair results [64, 3]; one grid point's block [8, 3, 64, 512] and
    its per-pair partial results [8, 3]; a per-channel vector [3]; a scalar. -/
abbrev A4 : Shape := ⟨4, ![64, 3, 512, 512]⟩
abbrev A2 : Shape := ⟨2, ![64, 3]⟩
abbrev B4 : Shape := ⟨4, ![8, 3, 64, 512]⟩
abbrev B2 : Shape := ⟨2, ![8, 3]⟩
abbrev C1 : Shape := ⟨1, ![3]⟩
abbrev Z0 : Shape := ⟨0, ![]⟩

variable {F : FTy → Type} [FloatOps F]

/-- The sum over the two trailing axes, at the pair (b, ch): first over a row's 512 lanes, then over the 512 rows. -/
def sumHW (E : A4.Idx → EReal) (b : Fin 64) (ch : Fin 3) : EReal :=
  ∑ h : Fin 512, ∑ w : Fin 512, E (ix4 b ch h w)

/-- The finishing step both programs end with: per channel, the sum of the per-pair quotients over the batch divided
    by the number of flagged pairs (by one where none is flagged), and zero where none is flagged. -/
def meanIoU (hr : A2.ReducesTo ([0] : List (Fin 2)) C1) (hs : 0 < Z0.numel)
    (hb : Z0.BroadcastsInDim C1 (![] : Fin 0 → Fin 1)) (iou valid : FVec F A2 .f32) : FVec F C1 .f32 :=
  select
    (cmpf .ogt (Host.reduceAdd valid (constant Z0 .f32 0x00000000#32) hr hs)
      (broadcastInDim C1 ![] hb (constant Z0 .f32 0x00000000#32)))
    (Host.divf (Host.reduceAdd iou (constant Z0 .f32 0x00000000#32) hr hs)
      (select
        (cmpf .ogt (Host.reduceAdd valid (constant Z0 .f32 0x00000000#32) hr hs)
          (broadcastInDim C1 ![] hb (constant Z0 .f32 0x00000000#32)))
        (Host.reduceAdd valid (constant Z0 .f32 0x00000000#32) hr hs)
        (broadcastInDim C1 ![] hb (id (constant Z0 .f32 0x3F800000#32)))))
    (broadcastInDim C1 ![] hb (id (constant Z0 .f32 0x00000000#32)))

end Cert.MaskIoU

end
-- ==== Proof.Tail.lean ====
/-
  The idealized kernel's run read to its three results: the host operations after the region average the two
  [64, 3] arrays the region leaves (the per-pair quotients and the per-pair flags) per channel, and each result is one
  channel's entry of that average.
-/
import proofs.«175206_j44796508897918_1_alg».proof.Proof.Spec
import proofs.«175206_j44796508897918_1_alg».proof.Proof.Gen.KernelIdeal.Frame
import Idealize.ShloMosaic.Lib.StableHlo.Run
import Idealize.ShloMosaic.Lib.Pipeline.Value

noncomputable section

namespace Cert.KernelIdeal.Tail

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The per-channel averages of the two arrays the region leaves. -/
abbrev means (c : Dev nD) : FVec F S3 .f32 :=
  Cert.MaskIoU.meanIoU reducesTo_S64x3_S3_d0 h_S_ bcast_S_S3
    ((dats m 0 c).arrAt 2 cfg0.N) ((dats m 0 c).arrAt 3 cfg0.N)

/-- The region's exit valuation read at the array of window 2 (the per-pair quotients). -/
private theorem exit_arr2 (c : Dev nD) :
    Pipeline.withArrays (cfgs 0).spec c (V0 m c) (fun w => (dats m 0 c).arrAt w (cfgs 0).N) (Proc.devRef .tc main_v0_0)
      = (dats m 0 c).arrAt 2 cfg0.N :=
  Pipeline.withArrays_arr spec0 launch0.win.arr_inj c _ _ 2

/-- The same at the array of window 3 (the per-pair flags). -/
private theorem exit_arr3 (c : Dev nD) :
    Pipeline.withArrays (cfgs 0).spec c (V0 m c) (fun w => (dats m 0 c).arrAt w (cfgs 0).N) (Proc.devRef .tc main_v0_1)
      = (dats m 0 c).arrAt 3 cfg0.N :=
  Pipeline.withArrays_arr spec0 launch0.win.arr_inj c _ _ 3

/-- The first result after the host operations: channel 0 of the averages. -/
private theorem tail_v11 (c : Dev nD) :
    Pipeline.afterTail₀ cfgs (dats m) 0 (V0 m) [hostOps1, hostOps1_1, hostOps1_2, hostOps1_3, hostOps1_4] c main_v11
      = shapeCast _ (extractStridedSlice S1 ![0] (means m c) slices_S3_S1_0) shapeCasts_S1_S_ := by
  unfold Pipeline.afterTail₀
  simp only [hostOps1, hostOps1_1, hostOps1_2, hostOps1_3, hostOps1_4, List.flatten_cons, List.flatten_nil, List.append_nil, List.cons_append, List.nil_append]
  after_results_simp
  simp only [StableHlo.TRef.ofBuf, StableHlo.TRef.toBuf, cast_eq]
  rw [exit_arr2, exit_arr3]
  rfl

/-- The second: channel 1. -/
private theorem tail_v13 (c : Dev nD) :
    Pipeline.afterTail₀ cfgs (dats m) 0 (V0 m) [hostOps1, hostOps1_1, hostOps1_2, hostOps1_3, hostOps1_4] c main_v13
      = shapeCast _ (extractStridedSlice S1 ![1] (means m c) slices_S3_S1_1) shapeCasts_S1_S_ := by
  unfold Pipeline.afterTail₀
  simp only [hostOps1, hostOps1_1, hostOps1_2, hostOps1_3, hostOps1_4, List.flatten_cons, List.flatten_nil, List.append_nil, List.cons_append, List.nil_append]
  after_results_simp
  simp only [StableHlo.TRef.ofBuf, StableHlo.TRef.toBuf, cast_eq]
  rw [exit_arr2, exit_arr3]
  rfl

/-- The third: channel 2. -/
private theorem tail_v15 (c : Dev nD) :
    Pipeline.afterTail₀ cfgs (dats m) 0 (V0 m) [hostOps1, hostOps1_1, hostOps1_2, hostOps1_3, hostOps1_4] c main_v15
      = shapeCast _ (extractStridedSlice S1 ![2] (means m c) slices_S3_S1_2) shapeCasts_S1_S_ := by
  unfold Pipeline.afterTail₀
  simp only [hostOps1, hostOps1_1, hostOps1_2, hostOps1_3, hostOps1_4, List.flatten_cons, List.flatten_nil, List.append_nil, List.cons_append, List.nil_append]
  after_results_simp
  simp only [StableHlo.TRef.ofBuf, StableHlo.TRef.toBuf, cast_eq]
  rw [exit_arr2, exit_arr3]
  rfl

/-- Every weakly fair execution terminates with result k at channel k's average and the arguments unchanged. -/
theorem run_tail : θ_run defs (onTc (τ := τ) (main (F := F))) ⟨m, fun _ => 0, ρ⟩ fun r => ∀ c : Dev nD,
      r.2.mem ((c.tc : Thread nD τ).loc main_v11) = shapeCast _ (extractStridedSlice S1 ![0] (means m c) slices_S3_S1_0) shapeCasts_S1_S_
      ∧ r.2.mem ((c.tc : Thread nD τ).loc main_v13) = shapeCast _ (extractStridedSlice S1 ![1] (means m c) slices_S3_S1_1) shapeCasts_S1_S_
      ∧ r.2.mem ((c.tc : Thread nD τ).loc main_v15) = shapeCast _ (extractStridedSlice S1 ![2] (means m c) slices_S3_S1_2) shapeCasts_S1_S_
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v11 (Pipeline.mem_restRefs_of _ rfl (by decide))).trans (tail_v11 m c),
     ((h c).2 main_v13 (Pipeline.mem_restRefs_of _ rfl (by decide))).trans (tail_v13 m c),
     ((h c).2 main_v15 (Pipeline.mem_restRefs_of _ rfl (by decide))).trans (tail_v15 m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩)
    (run_main m ρ)

end Cert.KernelIdeal.Tail

end
-- ==== Proof.KernelAcc.lean ====
/-
  What each grid point leaves in the kernel's three running sums and, at a batch tile's last point, in its two
  output blocks — read off the generated frame run as values.

  The grid is 8 batch tiles × 8 row tiles, row tiles innermost: point t works on batch tile t / 8 and row tile t % 8.
  Three scratch blocks [8, 3] carry, per pair (batch entry of the tile, channel), the running sizes of the
  intersection, the union and the target over the row tiles seen so far: the first row tile starts them from a zero
  block, every row tile adds its own block's sums, and the last row tile turns the three totals into the guarded
  quotient and the flag, which are the only stores into the two output blocks.
-/
import proofs.«175206_j44796508897918_1_alg».proof.Proof.Gen.KernelIdeal.Frame
import Idealize.ShloMosaic.Lib.Pipeline.Value
import Idealize.ShloMosaic.Lib.Tactic

noncomputable section

namespace Cert.KernelIdeal.Acc

open Cert.KernelIdeal Cert.KernelIdeal.Gen
open Idealize.ShloMosaic Idealize.ShloMosaic.TcCoe Idealize.SL.Sem Idealize.ShloMosaic.Tactic
open Idealize.ShloMosaic.Pipeline (Dat)

variable {F : FTy → Type} [FloatOps F]

/-- The zero offsets the body's whole-block loads and stores use. -/
theorem hz2 : (![0, 0] : Fin 2 → Nat) = fun _ => 0 := funext fun a => by fin_cases a <;> rfl
theorem hz4 : (![0, 0, 0, 0] : Fin 4 → Nat) = fun _ => 0 := funext fun a => by fin_cases a <;> rfl

/-! ## Each case's stores as values -/

/-- A first row tile: each running sum is the zero block plus the tile's sum. -/
theorem scratch0_A (c : Dev nD) (i : grid0.Coords) (arg2 : Memref sig .tc .vmem S8x3x64x512 .f32) (harg2 : arg2.IsWhole) (arg3 : Memref sig .tc .vmem S8x3x64x512 .f32) (harg3 : arg3.IsWhole) (arg4 : Memref sig .tc .vmem S8x3 .f32) (harg4 : arg4.IsWhole) (arg5 : Memref sig .tc .vmem S8x3 .f32) (harg5 : arg5.IsWhole) (arg6 : Memref sig .tc .vmem S8x3 .f32) (harg6 : arg6.IsWhole) (arg7 : Memref sig .tc .vmem S8x3 .f32) (harg7 : arg7.IsWhole) (arg8 : Memref sig .tc .vmem S8x3 .f32) (harg8 : arg8.IsWhole) (hc0 : cond0_0 i) (hc1 : ¬cond0_1 i) (x0 x1 : Vec F S8x3x64x512 .f32) :
    sout0_A_0 c i arg2 harg2 arg3 harg3 arg4 harg4 arg5 harg5 arg6 harg6 arg7 harg7 arg8 harg8 hc0 hc1 x0 x1 = k0_pay13 x0 x1 (k0_pay6 (F := F)) := by
  unfold sout0_A_0
  rw [View.read_writes_eq_canon _ _ _ (scover0_A_0 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S8x3) hz2, View.readCov_unit_zero (S := S8x3) _ hz2]
  simp only [View.readAt_eq_ld, harg2.read_unread, harg3.read_unread, harg4.read_unread, harg5.read_unread, harg6.read_unread, harg7.read_unread, harg8.read_unread, View.ld_unit_zero (S := S8x3x64x512) hz4, View.ld_unit_zero (S := S8x3) hz2, View.readCov_unit_zero (S := S8x3) _ hz2]

theorem scratch1_A (c : Dev nD) (i : grid0.Coords) (arg2 : Memref sig .tc .vmem S8x3x64x512 .f32) (harg2 : arg2.IsWhole) (arg3 : Memref sig .tc .vmem S8x3x64x512 .f32) (harg3 : arg3.IsWhole) (arg4 : Memref sig .tc .vmem S8x3 .f32) (harg4 : arg4.IsWhole) (arg5 : Memref sig .tc .vmem S8x3 .f32) (harg5 : arg5.IsWhole) (arg6 : Memref sig .tc .vmem S8x3 .f32) (harg6 : arg6.IsWhole) (arg7 : Memref sig .tc .vmem S8x3 .f32) (harg7 : arg7.IsWhole) (arg8 : Memref sig .tc .vmem S8x3 .f32) (harg8 : arg8.IsWhole) (hc0 : cond0_0 i) (hc1 : ¬cond0_1 i) (x0 x1 : Vec F S8x3x64x512 .f32) :
    sout0_A_1 c i arg2 harg2 arg3 harg3 arg4 harg4 arg5 harg5 arg6 harg6 arg7 harg7 arg8 harg8 hc0 hc1 x0 x1 = k0_pay1 (k0_pay11 x0 x1) (k0_pay7 (F := F)) := by
  unfold sout0_A_1
  rw [View.read_writes_eq_canon _ _ _ (scover0_A_1 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S8x3) hz2, View.readCov_unit_zero (S := S8x3) _ hz2]
  simp only [View.readAt_eq_ld, harg2.read_unread, harg3.read_unread, harg4.read_unread, harg5.read_unread, harg6.read_unread, harg7.read_unread, harg8.read_unread, View.ld_unit_zero (S := S8x3x64x512) hz4, View.ld_unit_zero (S := S8x3) hz2, View.readCov_unit_zero (S := S8x3) _ hz2]

theorem scratch2_A (c : Dev nD) (i : grid0.Coords) (arg2 : Memref sig .tc .vmem S8x3x64x512 .f32) (harg2 : arg2.IsWhole) (arg3 : Memref sig .tc .vmem S8x3x64x512 .f32) (harg3 : arg3.IsWhole) (arg4 : Memref sig .tc .vmem S8x3 .f32) (harg4 : arg4.IsWhole) (arg5 : Memref sig .tc .vmem S8x3 .f32) (harg5 : arg5.IsWhole) (arg6 : Memref sig .tc .vmem S8x3 .f32) (harg6 : arg6.IsWhole) (arg7 : Memref sig .tc .vmem S8x3 .f32) (harg7 : arg7.IsWhole) (arg8 : Memref sig .tc .vmem S8x3 .f32) (harg8 : arg8.IsWhole) (hc0 : cond0_0 i) (hc1 : ¬cond0_1 i) (x0 x1 : Vec F S8x3x64x512 .f32) :
    sout0_A_2 c i arg2 harg2 arg3 harg3 arg4 harg4 arg5 harg5 arg6 harg6 arg7 harg7 arg8 harg8 hc0 hc1 x0 x1 = k0_pay2 (k0_pay12 x1) (k0_pay8 (F := F)) := by
  unfold sout0_A_2
  rw [View.read_writes_eq_canon _ _ _ (scover0_A_2 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S8x3) hz2, View.readCov_unit_zero (S := S8x3) _ hz2]
  simp only [View.readAt_eq_ld, harg2.read_unread, harg3.read_unread, harg4.read_unread, harg5.read_unread, harg6.read_unread, harg7.read_unread, harg8.read_unread, View.ld_unit_zero (S := S8x3x64x512) hz4, View.ld_unit_zero (S := S8x3) hz2, View.readCov_unit_zero (S := S8x3) _ hz2]

/-- A middle row tile: each running sum is what the point before left plus the tile's sum. -/
theorem scratch0_B (c : Dev nD) (i : grid0.Coords) (arg2 : Memref sig .tc .vmem S8x3x64x512 .f32) (harg2 : arg2.IsWhole) (arg3 : Memref sig .tc .vmem S8x3x64x512 .f32) (harg3 : arg3.IsWhole) (arg4 : Memref sig .tc .vmem S8x3 .f32) (harg4 : arg4.IsWhole) (arg5 : Memref sig .tc .vmem S8x3 .f32) (harg5 : arg5.IsWhole) (arg6 : Memref sig .tc .vmem S8x3 .f32) (harg6 : arg6.IsWhole) (arg7 : Memref sig .tc .vmem S8x3 .f32) (harg7 : arg7.IsWhole) (arg8 : Memref sig .tc .vmem S8x3 .f32) (harg8 : arg8.IsWhole) (hc0 : ¬cond0_0 i) (hc1 : ¬cond0_1 i) (x0 x1 : Vec F S8x3x64x512 .f32) (xs0 xs1 xs2 : Vec F S8x3 .f32) :
    sout0_B_0 c i arg2 harg2 arg3 harg3 arg4 harg4 arg5 harg5 arg6 harg6 arg7 harg7 arg8 harg8 hc0 hc1 x0 x1 xs0 xs1 xs2 = k0_pay13 x0 x1 xs0 := by
  unfold sout0_B_0
  rw [View.read_writes_eq_canon _ _ _ (scover0_B_0 c i arg2 harg2 arg3 harg3 arg4 harg4 arg5 harg5 arg6 harg6 arg7 harg7 arg8 harg8 hc0 hc1 x0 x1 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S8x3x64x512) hz4, View.ld_unit_zero (S := S8x3) hz2, View.readCov_unit_zero (S := S8x3) _ hz2]

theorem scratch1_B (c : Dev nD) (i : grid0.Coords) (arg2 : Memref sig .tc .vmem S8x3x64x512 .f32) (harg2 : arg2.IsWhole) (arg3 : Memref sig .tc .vmem S8x3x64x512 .f32) (harg3 : arg3.IsWhole) (arg4 : Memref sig .tc .vmem S8x3 .f32) (harg4 : arg4.IsWhole) (arg5 : Memref sig .tc .vmem S8x3 .f32) (harg5 : arg5.IsWhole) (arg6 : Memref sig .tc .vmem S8x3 .f32) (harg6 : arg6.IsWhole) (arg7 : Memref sig .tc .vmem S8x3 .f32) (harg7 : arg7.IsWhole) (arg8 : Memref sig .tc .vmem S8x3 .f32) (harg8 : arg8.IsWhole) (hc0 : ¬cond0_0 i) (hc1 : ¬cond0_1 i) (x0 x1 : Vec F S8x3x64x512 .f32) (xs0 xs1 xs2 : Vec F S8x3 .f32) :
    sout0_B_1 c i arg2 harg2 arg3 harg3 arg4 harg4 arg5 harg5 arg6 harg6 arg7 harg7 arg8 harg8 hc0 hc1 x0 x1 xs0 xs1 xs2 = k0_pay1 (k0_pay11 x0 x1) xs1 := by
  unfold sout0_B_1
  rw [View.read_writes_eq_canon _ _ _ (scover0_B_1 c i arg2 harg2 arg3 harg3 arg4 harg4 arg5 harg5 arg6 harg6 arg7 harg7 arg8 harg8 hc0 hc1 x0 x1 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S8x3x64x512) hz4, View.ld_unit_zero (S := S8x3) hz2, View.readCov_unit_zero (S := S8x3) _ hz2]

theorem scratch2_B (c : Dev nD) (i : grid0.Coords) (arg2 : Memref sig .tc .vmem S8x3x64x512 .f32) (harg2 : arg2.IsWhole) (arg3 : Memref sig .tc .vmem S8x3x64x512 .f32) (harg3 : arg3.IsWhole) (arg4 : Memref sig .tc .vmem S8x3 .f32) (harg4 : arg4.IsWhole) (arg5 : Memref sig .tc .vmem S8x3 .f32) (harg5 : arg5.IsWhole) (arg6 : Memref sig .tc .vmem S8x3 .f32) (harg6 : arg6.IsWhole) (arg7 : Memref sig .tc .vmem S8x3 .f32) (harg7 : arg7.IsWhole) (arg8 : Memref sig .tc .vmem S8x3 .f32) (harg8 : arg8.IsWhole) (hc0 : ¬cond0_0 i) (hc1 : ¬cond0_1 i) (x0 x1 : Vec F S8x3x64x512 .f32) (xs0 xs1 xs2 : Vec F S8x3 .f32) :
    sout0_B_2 c i arg2 harg2 arg3 harg3 arg4 harg4 arg5 harg5 arg6 harg6 arg7 harg7 arg8 harg8 hc0 hc1 x0 x1 xs0 xs1 xs2 = k0_pay2 (k0_pay12 x1) xs2 := by
  unfold sout0_B_2
  rw [View.read_writes_eq_canon _ _ _ (scover0_B_2 c i arg2 harg2 arg3 harg3 arg4 harg4 arg5 harg5 arg6 harg6 arg7 harg7 arg8 harg8 hc0 hc1 x0 x1 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S8x3x64x512) hz4, View.ld_unit_zero (S := S8x3) hz2, View.readCov_unit_zero (S := S8x3) _ hz2]

/-- A last row tile adds in the same way, -/
theorem scratch0_C (c : Dev nD) (i : grid0.Coords) (arg2 : Memref sig .tc .vmem S8x3x64x512 .f32) (harg2 : arg2.IsWhole) (arg3 : Memref sig .tc .vmem S8x3x64x512 .f32) (harg3 : arg3.IsWhole) (arg4 : Memref sig .tc .vmem S8x3 .f32) (harg4 : arg4.IsWhole) (arg5 : Memref sig .tc .vmem S8x3 .f32) (harg5 : arg5.IsWhole) (arg6 : Memref sig .tc .vmem S8x3 .f32) (harg6 : arg6.IsWhole) (arg7 : Memref sig .tc .vmem S8x3 .f32) (harg7 : arg7.IsWhole) (arg8 : Memref sig .tc .vmem S8x3 .f32) (harg8 : arg8.IsWhole) (hc0 : ¬cond0_0 i) (hc1 : cond0_1 i) (x0 x1 : Vec F S8x3x64x512 .f32) (xs0 xs1 xs2 : Vec F S8x3 .f32) :
    sout0_C_0 c i arg2 harg2 arg3 harg3 arg4 harg4 arg5 harg5 arg6 harg6 arg7 harg7 arg8 harg8 hc0 hc1 x0 x1 xs0 xs1 xs2 = k0_pay13 x0 x1 xs0 := by
  unfold sout0_C_0
  rw [View.read_writes_eq_canon _ _ _ (scover0_C_0 c i arg2 harg2 arg3 harg3 arg4 harg4 arg5 harg5 arg6 harg6 arg7 harg7 arg8 harg8 hc0 hc1 x0 x1 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S8x3x64x512) hz4, View.ld_unit_zero (S := S8x3) hz2, View.readCov_unit_zero (S := S8x3) _ hz2]

theorem scratch1_C (c : Dev nD) (i : grid0.Coords) (arg2 : Memref sig .tc .vmem S8x3x64x512 .f32) (harg2 : arg2.IsWhole) (arg3 : Memref sig .tc .vmem S8x3x64x512 .f32) (harg3 : arg3.IsWhole) (arg4 : Memref sig .tc .vmem S8x3 .f32) (harg4 : arg4.IsWhole) (arg5 : Memref sig .tc .vmem S8x3 .f32) (harg5 : arg5.IsWhole) (arg6 : Memref sig .tc .vmem S8x3 .f32) (harg6 : arg6.IsWhole) (arg7 : Memref sig .tc .vmem S8x3 .f32) (harg7 : arg7.IsWhole) (arg8 : Memref sig .tc .vmem S8x3 .f32) (harg8 : arg8.IsWhole) (hc0 : ¬cond0_0 i) (hc1 : cond0_1 i) (x0 x1 : Vec F S8x3x64x512 .f32) (xs0 xs1 xs2 : Vec F S8x3 .f32) :
    sout0_C_1 c i arg2 harg2 arg3 harg3 arg4 harg4 arg5 harg5 arg6 harg6 arg7 harg7 arg8 harg8 hc0 hc1 x0 x1 xs0 xs1 xs2 = k0_pay1 (k0_pay11 x0 x1) xs1 := by
  unfold sout0_C_1
  rw [View.read_writes_eq_canon _ _ _ (scover0_C_1 c i arg2 harg2 arg3 harg3 arg4 harg4 arg5 harg5 arg6 harg6 arg7 harg7 arg8 harg8 hc0 hc1 x0 x1 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S8x3x64x512) hz4, View.ld_unit_zero (S := S8x3) hz2, View.readCov_unit_zero (S := S8x3) _ hz2]

theorem scratch2_C (c : Dev nD) (i : grid0.Coords) (arg2 : Memref sig .tc .vmem S8x3x64x512 .f32) (harg2 : arg2.IsWhole) (arg3 : Memref sig .tc .vmem S8x3x64x512 .f32) (harg3 : arg3.IsWhole) (arg4 : Memref sig .tc .vmem S8x3 .f32) (harg4 : arg4.IsWhole) (arg5 : Memref sig .tc .vmem S8x3 .f32) (harg5 : arg5.IsWhole) (arg6 : Memref sig .tc .vmem S8x3 .f32) (harg6 : arg6.IsWhole) (arg7 : Memref sig .tc .vmem S8x3 .f32) (harg7 : arg7.IsWhole) (arg8 : Memref sig .tc .vmem S8x3 .f32) (harg8 : arg8.IsWhole) (hc0 : ¬cond0_0 i) (hc1 : cond0_1 i) (x0 x1 : Vec F S8x3x64x512 .f32) (xs0 xs1 xs2 : Vec F S8x3 .f32) :
    sout0_C_2 c i arg2 harg2 arg3 harg3 arg4 harg4 arg5 harg5 arg6 harg6 arg7 harg7 arg8 harg8 hc0 hc1 x0 x1 xs0 xs1 xs2 = k0_pay2 (k0_pay12 x1) xs2 := by
  unfold sout0_C_2
  rw [View.read_writes_eq_canon _ _ _ (scover0_C_2 c i arg2 harg2 arg3 harg3 arg4 harg4 arg5 harg5 arg6 harg6 arg7 harg7 arg8 harg8 hc0 hc1 x0 x1 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S8x3x64x512) hz4, View.ld_unit_zero (S := S8x3) hz2, View.readCov_unit_zero (S := S8x3) _ hz2]

/-- and stores the guarded quotient and the flag computed from the three totals it has just stored. -/
theorem out2_C (c : Dev nD) (i : grid0.Coords) (arg2 : Memref sig .tc .vmem S8x3x64x512 .f32) (harg2 : arg2.IsWhole) (arg3 : Memref sig .tc .vmem S8x3x64x512 .f32) (harg3 : arg3.IsWhole) (arg4 : Memref sig .tc .vmem S8x3 .f32) (harg4 : arg4.IsWhole) (arg5 : Memref sig .tc .vmem S8x3 .f32) (harg5 : arg5.IsWhole) (arg6 : Memref sig .tc .vmem S8x3 .f32) (harg6 : arg6.IsWhole) (arg7 : Memref sig .tc .vmem S8x3 .f32) (harg7 : arg7.IsWhole) (arg8 : Memref sig .tc .vmem S8x3 .f32) (harg8 : arg8.IsWhole) (hc0 : ¬cond0_0 i) (hc1 : cond0_1 i) (x0 x1 : Vec F S8x3x64x512 .f32) (xs0 xs1 xs2 : Vec F S8x3 .f32) :
    out0_C_2 c i arg2 harg2 arg3 harg3 arg4 harg4 arg5 harg5 arg6 harg6 arg7 harg7 arg8 harg8 hc0 hc1 x0 x1 xs0 xs1 xs2 = k0_pay4 (k0_pay1 (k0_pay11 x0 x1) xs1) (k0_pay13 x0 x1 xs0) (k0_pay2 (k0_pay12 x1) xs2) := by
  unfold out0_C_2
  rw [View.read_writes_eq_canon _ _ _ (cover0_C_2 c i arg2 harg2 arg3 harg3 arg4 harg4 arg5 harg5 arg6 harg6 arg7 harg7 arg8 harg8 hc0 hc1 x0 x1 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S8x3x64x512) hz4, View.ld_unit_zero (S := S8x3) hz2, View.readCov_unit_zero (S := S8x3) _ hz2]

theorem out3_C (c : Dev nD) (i : grid0.Coords) (arg2 : Memref sig .tc .vmem S8x3x64x512 .f32) (harg2 : arg2.IsWhole) (arg3 : Memref sig .tc .vmem S8x3x64x512 .f32) (harg3 : arg3.IsWhole) (arg4 : Memref sig .tc .vmem S8x3 .f32) (harg4 : arg4.IsWhole) (arg5 : Memref sig .tc .vmem S8x3 .f32) (harg5 : arg5.IsWhole) (arg6 : Memref sig .tc .vmem S8x3 .f32) (harg6 : arg6.IsWhole) (arg7 : Memref sig .tc .vmem S8x3 .f32) (harg7 : arg7.IsWhole) (arg8 : Memref sig .tc .vmem S8x3 .f32) (harg8 : arg8.IsWhole) (hc0 : ¬cond0_0 i) (hc1 : cond0_1 i) (x0 x1 : Vec F S8x3x64x512 .f32) (xs0 xs1 xs2 : Vec F S8x3 .f32) :
    out0_C_3 c i arg2 harg2 arg3 harg3 arg4 harg4 arg5 harg5 arg6 harg6 arg7 harg7 arg8 harg8 hc0 hc1 x0 x1 xs0 xs1 xs2 = k0_pay5 (k0_pay2 (k0_pay12 x1) xs2) := by
  unfold out0_C_3
  rw [View.read_writes_eq_canon _ _ _ (cover0_C_3 c i arg2 harg2 arg3 harg3 arg4 harg4 arg5 harg5 arg6 harg6 arg7 harg7 arg8 harg8 hc0 hc1 x0 x1 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S8x3x64x512) hz4, View.ld_unit_zero (S := S8x3) hz2, View.readCov_unit_zero (S := S8x3) _ hz2]

/-! ## The running sums, point by point -/

variable (m : (ℓ : Loc nD τ sig) → Buf (Elt F) ℓ)

/-- The two input blocks of point `t`, at their literal type. -/
abbrev xblk (c : Dev nD) (t : Fin cfg0.N) : Vec F S8x3x64x512 .f32 := iblk m c 0 t
abbrev yblk (c : Dev nD) (t : Fin cfg0.N) : Vec F S8x3x64x512 .f32 := iblk m c 1 t

/-- Three blocks [8, 3]: the running sizes of the intersection, the union and the target. -/
abbrev Sums3 (F : FTy → Type) [FloatOps F] : Type := Vec F S8x3 .f32 × Vec F S8x3 .f32 × Vec F S8x3 .f32

/-- The zero blocks a first row tile stores. -/
def zero3 : Sums3 F := (k0_pay6, k0_pay7, k0_pay8)

/-- One point's update: each running sum plus the sum of this point's block. -/
def next (c : Dev nD) (t : Fin cfg0.N) (prev : Sums3 F) : Sums3 F :=
  (k0_pay13 (xblk m c t) (yblk m c t) prev.1, k0_pay1 (k0_pay11 (xblk m c t) (yblk m c t)) prev.2.1,
    k0_pay2 (k0_pay12 (yblk m c t)) prev.2.2)

/-- The running sums after point `n`: restarted from zero at every first row tile (n ≡ 0 mod 8). -/
def sums (c : Dev nD) : (n : ℕ) → n < cfg0.N → Sums3 F
  | 0, h => next m c ⟨0, h⟩ zero3
  | n + 1, h => next m c ⟨n + 1, h⟩ (if (n + 1) % 8 = 0 then zero3 else sums c n (Nat.lt_of_succ_lt h))

/-- What the frame's point-by-point contents hold in the three scratch blocks IS the running sums: by induction on the
    point, the case of each point decided by its residue mod 8. -/
theorem scratch_eq (c : Dev nD) : ∀ (n : ℕ) (h : n < cfg0.N), (outsAt0 m c n h).2.2 = sums m c n h
  | 0, h => by
    rw [outsAt0_A m c ⟨0, h⟩ rfl (by show ¬(0 % 8 = 7); decide)]
    dsimp only
    rw [scratch0_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) scM0_1 (Memref.isWhole_whole _) scM0_2 (Memref.isWhole_whole _) _ _ (iblk m c 0 ⟨0, h⟩) (iblk m c 1 ⟨0, h⟩),
      scratch1_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) scM0_1 (Memref.isWhole_whole _) scM0_2 (Memref.isWhole_whole _) _ _ (iblk m c 0 ⟨0, h⟩) (iblk m c 1 ⟨0, h⟩),
      scratch2_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) scM0_1 (Memref.isWhole_whole _) scM0_2 (Memref.isWhole_whole _) _ _ (iblk m c 0 ⟨0, h⟩) (iblk m c 1 ⟨0, h⟩)]
    rfl
  | n + 1, h => by
    have hN : cfg0.N = 64 := N_0
    have ih := scratch_eq c n (Nat.lt_of_succ_lt h)
    by_cases h0 : (n + 1) % 8 = 0
    · have h1 : ¬(n + 1) % 8 = 7 := by omega
      rw [outsAt0_A m c ⟨n + 1, h⟩ h0 h1]
      dsimp only
      rw [scratch0_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) scM0_2 (Memref.isWhole_whole _) _ _ (iblk m c 0 ⟨n + 1, h⟩) (iblk m c 1 ⟨n + 1, h⟩),
        scratch1_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) scM0_2 (Memref.isWhole_whole _) _ _ (iblk m c 0 ⟨n + 1, h⟩) (iblk m c 1 ⟨n + 1, h⟩),
        scratch2_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) scM0_2 (Memref.isWhole_whole _) _ _ (iblk m c 0 ⟨n + 1, h⟩) (iblk m c 1 ⟨n + 1, h⟩)]
      show _ = next m c ⟨n + 1, h⟩ (if (n + 1) % 8 = 0 then zero3 else sums m c n _)
      rw [if_pos h0]
      rfl
    · by_cases h1 : (n + 1) % 8 = 7
      · rw [outsAt0_C m c ⟨n + 1, h⟩ h0 h1]
        dsimp only
        rw [scratch0_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) scM0_2 (Memref.isWhole_whole _) _ _ (iblk m c 0 ⟨n + 1, h⟩) (iblk m c 1 ⟨n + 1, h⟩) _ _ _,
          scratch1_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) scM0_2 (Memref.isWhole_whole _) _ _ (iblk m c 0 ⟨n + 1, h⟩) (iblk m c 1 ⟨n + 1, h⟩) _ _ _,
          scratch2_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) scM0_2 (Memref.isWhole_whole _) _ _ (iblk m c 0 ⟨n + 1, h⟩) (iblk m c 1 ⟨n + 1, h⟩) _ _ _]
        show _ = next m c ⟨n + 1, h⟩ (if (n + 1) % 8 = 0 then zero3 else sums m c n _)
        rw [if_neg h0, ← ih]
        rfl
      · rw [outsAt0_B m c ⟨n + 1, h⟩ h0 h1]
        dsimp only
        rw [scratch0_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) scM0_2 (Memref.isWhole_whole _) _ _ (iblk m c 0 ⟨n + 1, h⟩) (iblk m c 1 ⟨n + 1, h⟩) _ _ _,
          scratch1_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) scM0_2 (Memref.isWhole_whole _) _ _ (iblk m c 0 ⟨n + 1, h⟩) (iblk m c 1 ⟨n + 1, h⟩) _ _ _,
          scratch2_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) scM0_2 (Memref.isWhole_whole _) _ _ (iblk m c 0 ⟨n + 1, h⟩) (iblk m c 1 ⟨n + 1, h⟩) _ _ _]
        show _ = next m c ⟨n + 1, h⟩ (if (n + 1) % 8 = 0 then zero3 else sums m c n _)
        rw [if_neg h0, ← ih]
        rfl

/-- After a point that is not a first row tile, the running sums are the point's update of the sums before it. -/
theorem sums_succ (c : Dev nD) (k : ℕ) (hn : k + 1 < cfg0.N) (h0 : ¬(k + 1) % 8 = 0) :
    sums m c (k + 1) hn = next m c ⟨k + 1, hn⟩ (sums m c k (Nat.lt_of_succ_lt hn)) := by
  show next m c ⟨k + 1, hn⟩ (if (k + 1) % 8 = 0 then zero3 else sums m c k _) = _
  rw [if_neg h0]

/-- At a last row tile (t ≡ 7 mod 8) the two output blocks hold the guarded quotient and the flag of the three totals
    the point has just completed. -/
theorem outs_last (c : Dev nD) (t : Fin cfg0.N) (h1 : t.val % 8 = 7) :
    (outsAt0 m c t.val t.isLt).1
        = k0_pay4 (sums m c t.val t.isLt).2.1 (sums m c t.val t.isLt).1 (sums m c t.val t.isLt).2.2
      ∧ (outsAt0 m c t.val t.isLt).2.1 = k0_pay5 (sums m c t.val t.isLt).2.2 := by
  obtain ⟨n, hn⟩ := t
  cases n with
  | zero => exact absurd h1 (by show ¬(0 % 8 = 7); decide)
  | succ k =>
    have h1' : (k + 1) % 8 = 7 := h1
    have h0 : ¬(k + 1) % 8 = 0 := by omega
    have ih := scratch_eq m c k (Nat.lt_of_succ_lt hn)
    show (outsAt0 m c (k + 1) hn).1 = k0_pay4 (sums m c (k + 1) hn).2.1 (sums m c (k + 1) hn).1 (sums m c (k + 1) hn).2.2
      ∧ (outsAt0 m c (k + 1) hn).2.1 = k0_pay5 (sums m c (k + 1) hn).2.2
    rw [sums_succ m c k hn h0, ← ih]
    have e := outsAt0_C m c ⟨k + 1, hn⟩ h0 h1'
    rw [show outsAt0 m c (k + 1) hn = outsAt0 m c (⟨k + 1, hn⟩ : Fin cfg0.N).val (⟨k + 1, hn⟩ : Fin cfg0.N).isLt from rfl, e]
    dsimp only
    rw [out2_C c (grid0.coords ⟨k + 1, hn⟩) (ms0_0 ⟨k + 1, hn⟩) (hs0_0 ⟨k + 1, hn⟩) (ms0_1 ⟨k + 1, hn⟩) (hs0_1 ⟨k + 1, hn⟩) (ms0_2 ⟨k + 1, hn⟩) (hs0_2 ⟨k + 1, hn⟩) (ms0_3 ⟨k + 1, hn⟩) (hs0_3 ⟨k + 1, hn⟩) scM0_0 (Memref.isWhole_whole _) scM0_1 (Memref.isWhole_whole _) scM0_2 (Memref.isWhole_whole _) _ _ (iblk m c 0 ⟨k + 1, hn⟩) (iblk m c 1 ⟨k + 1, hn⟩) _ _ _, out3_C c (grid0.coords ⟨k + 1, hn⟩) (ms0_0 ⟨k + 1, hn⟩) (hs0_0 ⟨k + 1, hn⟩) (ms0_1 ⟨k + 1, hn⟩) (hs0_1 ⟨k + 1, hn⟩) (ms0_2 ⟨k + 1, hn⟩) (hs0_2 ⟨k + 1, hn⟩) (ms0_3 ⟨k + 1, hn⟩) (hs0_3 ⟨k + 1, hn⟩) scM0_0 (Memref.isWhole_whole _) scM0_1 (Memref.isWhole_whole _) scM0_2 (Memref.isWhole_whole _) _ _ (iblk m c 0 ⟨k + 1, hn⟩) (iblk m c 1 ⟨k + 1, hn⟩) _ _ _]
    exact ⟨rfl, rfl⟩

end Cert.KernelIdeal.Acc

end
-- ==== Proof.Sums.lean ====
/-
  Sums and indicators on the extended reals: the kernel's reduction of one block over its two trailing axes (one axis
  at a time, unit axes added and dropped in between) and the host's reduction of the whole array over the same two
  axes, both as the double sum over rows and lanes; eight consecutive blocks of 64 rows make the 512 rows; and on
  0/1 values the sum clipped to [0, 1] is the larger of the two.
-/
import proofs.«175206_j44796508897918_1_alg».proof.Proof.Spec
import Idealize.ShloMosaic.Lib.Pipeline.Value
import Idealize.ShloMosaic.Lib.KernelVsHost
import Idealize.ShloMosaic.Lib.IdealHost

noncomputable section

namespace Cert.MaskIoU

open Idealize.ShloMosaic Idealize.ShloMosaic.ValueIdx

/-- A block summed over its 512 lanes, then over its 64 rows, at the pair (bb, ch): the double sum. -/
theorem blockSum_apply (E : FVec Ideal B4 .f32)
    (h3 : B4.Reduces ([3] : List (Fin 4)) ⟨3, ![8, 3, 64]⟩)
    (c1 : (⟨3, ![8, 3, 64]⟩ : Shape).ShapeCasts ⟨4, ![8, 3, 64, 1]⟩)
    (h2 : (⟨4, ![8, 3, 64, 1]⟩ : Shape).Reduces ([2] : List (Fin 4)) ⟨3, ![8, 3, 1]⟩)
    (c2 : (⟨3, ![8, 3, 1]⟩ : Shape).ShapeCasts ⟨4, ![8, 3, 1, 1]⟩)
    (c3 : (⟨4, ![8, 3, 1, 1]⟩ : Shape).ShapeCasts B2)
    (hφ : FKind.Formats .f32) (hacc : (0x00000000#32 : BitVec 32) = FKind.add.neutral .f32 hφ)
    (bb : Fin 8) (ch : Fin 3) :
    shapeCast B2 (shapeCast ⟨4, ![8, 3, 1, 1]⟩ (multiReduction .add [2] ⟨3, ![8, 3, 1]⟩
        (shapeCast ⟨4, ![8, 3, 64, 1]⟩ (multiReduction .add [3] ⟨3, ![8, 3, 64]⟩ E 0x00000000#32 h3 hφ hacc) c1)
        0x00000000#32 h2 hφ hacc) c2) c3 (ix2 bb ch)
      = ∑ r : Fin 64, ∑ w : Fin 512, E (ix4 bb ch r w) := by
  -- the two trailing unit axes are dropped: (bb, ch) reads (bb, ch, 0, 0), which reads (bb, ch, 0)
  refine (shapeCast_apply _ c3 (ix2 bb ch) (ix4 bb ch (0 : Fin 1) (0 : Fin 1)) (by
    rw [Shape.rowMajor_val_four, Shape.rowMajor_val_two]
    show ((bb.val * 3 + ch.val) * 1 + 0) * 1 + 0 = bb.val * 3 + ch.val; omega)).trans ?_
  refine (shapeCast_apply _ c2 (ix4 bb ch (0 : Fin 1) (0 : Fin 1)) (ix3 bb ch (0 : Fin 1)) (by
    rw [Shape.rowMajor_val_three, Shape.rowMajor_val_four]
    show (bb.val * 3 + ch.val) * 1 + 0 = ((bb.val * 3 + ch.val) * 1 + 0) * 1 + 0; omega)).trans ?_
  -- the sum over the 64 rows
  refine (Ideal.multiReduction_add_single _ _ h2 hφ hacc _).trans ?_
  show ∑ r : Fin 64, _ = _
  refine Finset.sum_congr rfl fun r _ => ?_
  -- the unit axis added behind the rows: (bb, ch, r, 0) reads (bb, ch, r)
  refine (shapeCast_apply _ c1 _ (ix3 bb ch r) (by
    rw [Shape.rowMajor_val_three, Shape.rowMajor_val_four]
    show (bb.val * 3 + ch.val) * 64 + r.val = ((bb.val * 3 + ch.val) * 64 + r.val) * 1 + 0; omega)).trans ?_
  -- the sum over the 512 lanes
  refine (Ideal.multiReduction_add_single _ _ h3 hφ hacc _).trans ?_
  show ∑ w : Fin 512, _ = _
  refine Finset.sum_congr rfl fun w _ => ?_
  exact congrArg E (funext fun a => match a with
    | ⟨0, _⟩ => rfl | ⟨1, _⟩ => rfl | ⟨2, _⟩ => rfl | ⟨3, _⟩ => rfl)

/-- The host's sum of the whole array over its two trailing axes, from an initial value that is zero, at (b, ch). -/
theorem hostSum_apply (E : FVec Ideal A4 .f32) (init : Z0.Idx → Ideal .f32)
    (h' : A4.ReducesTo ([2, 3] : List (Fin 4)) A2) (hu : 0 < Z0.numel) (h0 : init (Shape.Idx.first hu) = 0)
    (b : Fin 64) (ch : Fin 3) :
    Host.reduceAdd E init h' hu (ix2 b ch) = sumHW E b ch := by
  rw [hostReduceAdd_apply, h0]
  unfold Ideal.hostReduceAdd sumHW
  rw [zero_add, ← Finset.sum_product']
  -- the two kept axes of an index are its first two coordinates
  have k0 : ∀ i : A4.Idx, (h'.drop i 0 : Nat) = (i 0 : Nat) := fun i => h'.drop_apply_val_of_eq i 0 0
  have k1 : ∀ i : A4.Idx, (h'.drop i 1 : Nat) = (i 1 : Nat) := fun i => h'.drop_apply_val_of_eq i 1 1
  -- so an index that drops to (b, ch) is (b, ch, h, w) of its two trailing coordinates
  have back : ∀ i ∈ Finset.univ.filter (fun i : A4.Idx => h'.drop i = ix2 b ch),
      ix4 b ch (i 2 : Fin 512) (i 3 : Fin 512) = i := by
    intro i hi
    have hd := (Finset.mem_filter.1 hi).2
    have e0 : (i 0 : Fin 64) = b := Fin.ext ((k0 i).symm.trans (congrArg (fun j : A2.Idx => (j 0 : Nat)) hd))
    have e1 : (i 1 : Fin 3) = ch := Fin.ext ((k1 i).symm.trans (congrArg (fun j : A2.Idx => (j 1 : Nat)) hd))
    rw [← e0, ← e1]
    exact (eq_ix4 i).symm
  refine Finset.sum_nbij' (fun i => ((i 2 : Fin 512), (i 3 : Fin 512))) (fun p => ix4 b ch p.1 p.2) ?_ ?_ back ?_ ?_
  · intro i _
    exact Finset.mem_product.2 ⟨Finset.mem_univ _, Finset.mem_univ _⟩
  · intro p _
    refine Finset.mem_filter.2 ⟨Finset.mem_univ _, funext fun a => ?_⟩
    match a with
    | ⟨0, _⟩ => exact Fin.ext (k0 _)
    | ⟨1, _⟩ => exact Fin.ext (k1 _)
  · intro p _
    rfl
  · intro i hi
    exact congrArg E (back i hi).symm

/-- Eight consecutive blocks of 64 rows are the 512 rows. -/
theorem sum_rows_blocks (g : Fin 512 → EReal) :
    ∑ j : Fin 8, ∑ r : Fin 64, g ⟨64 * j.val + r.val, by have := j.isLt; have := r.isLt; omega⟩ = ∑ h : Fin 512, g h := by
  -- a row number below 512 is 64 j + r for exactly one block j below 8 and one row r below 64
  have e : ∑ h : Fin 512, g h = ∑ p : Fin 8 × Fin 64, g (finProdFinEquiv (m := 8) (n := 64) p) :=
    (Equiv.sum_comp (finProdFinEquiv (m := 8) (n := 64)) g).symm
  rw [e, Fintype.sum_prod_type]
  refine Finset.sum_congr rfl fun j _ => Finset.sum_congr rfl fun r _ => congrArg g (Fin.ext ?_)
  show 64 * j.val + r.val = r.val + 64 * j.val
  omega

/-- A one-bit word converted unsigned is zero or one. -/
theorem uitofp_bit_cases (p : BitVec 1) :
    FloatOps.uitofp (F := Ideal) .f32 p = (0 : EReal) ∨ FloatOps.uitofp (F := Ideal) .f32 p = (1 : EReal) := by
  have hp : p = 0#1 ∨ p = 1#1 := by revert p; decide
  rcases hp with rfl | rfl
  · left
    show (((0#1 : BitVec 1).toNat : ℝ) : EReal) = 0
    simp
  · right
    show (((1#1 : BitVec 1).toNat : ℝ) : EReal) = 1
    simp

/-- On 0/1 values, the sum clipped below at zero and above at one is the larger of the two. -/
theorem clip_add_eq_max (a b : EReal) (ha : a = 0 ∨ a = 1) (hb : b = 0 ∨ b = 1) :
    min (Ideal.ofBits .f32 0x3F800000#32) (max (Ideal.ofBits .f32 0x00000000#32) (a + b)) = max a b := by
  rw [Ideal.ofBits_one_f32, Ideal.ofBits_zero_f32]
  rcases ha with rfl | rfl <;> rcases hb with rfl | rfl
  · simp
  · simp
  · simp
  · -- one plus one is above one, so the clip cuts it back to one
    have h : (1 : EReal) ≤ 1 + 1 := le_add_of_nonneg_right zero_le_one
    rw [max_eq_right (le_trans zero_le_one h), min_eq_left h, max_self]

end Cert.MaskIoU

end
-- ==== Proof.Target.lean ====
/-
  The two [64, 3] arrays both programs compute before the shared finishing step, as functions of the inputs alone.

  The indicator of "above one half"; at a pair (b, ch) the sizes of the intersection (the sum of the indicators'
  products), of the union (the sum of the larger indicator) and of the target (the sum of y's indicator); the quotient
  intersection / union, with the divisor replaced by one and the quotient by zero where the union is empty, and zero
  where the target is empty; the flag, one where the target is not empty.
-/
import proofs.«175206_j44796508897918_1_alg».proof.Proof.Spec

noncomputable section

namespace Cert.MaskIoU

open Idealize.ShloMosaic Idealize.ShloMosaic.ValueIdx

/-- One where `x` is above one half, else zero. -/
def bit (x : Ideal .f32) : Ideal .f32 :=
  FloatOps.uitofp .f32 (FloatOps.cmpf .ogt x (FloatOps.ofBits .f32 0x3F000000#32))

/-- The intersection's, the union's and the target's size at the pair (b, ch). -/
def interAt (x y : FVec Ideal A4 .f32) (b : Fin 64) (ch : Fin 3) : EReal := sumHW (fun i => bit (x i) * bit (y i)) b ch
def unionAt (x y : FVec Ideal A4 .f32) (b : Fin 64) (ch : Fin 3) : EReal := sumHW (fun i => max (bit (x i)) (bit (y i))) b ch
def targetAt (y : FVec Ideal A4 .f32) (b : Fin 64) (ch : Fin 3) : EReal := sumHW (fun i => bit (y i)) b ch

/-- The guarded quotient of the three sizes. -/
def quotient (I U T : Ideal .f32) : Ideal .f32 :=
  Scalar.select (FloatOps.cmpf .ogt T (FloatOps.ofBits .f32 0x00000000#32))
    (Scalar.select (FloatOps.cmpf .ogt U (FloatOps.ofBits .f32 0x00000000#32))
      (FloatOps.divf I (Scalar.select (FloatOps.cmpf .ogt U (FloatOps.ofBits .f32 0x00000000#32)) U
        (FloatOps.ofBits .f32 0x3F800000#32)))
      (FloatOps.ofBits .f32 0x00000000#32))
    (FloatOps.ofBits .f32 0x00000000#32)

/-- One where the target is not empty. -/
def flag (T : Ideal .f32) : Ideal .f32 :=
  FloatOps.uitofp .f32 (FloatOps.cmpf .ogt T (FloatOps.ofBits .f32 0x00000000#32))

/-- The per-pair quotients and the per-pair flags, as arrays [64, 3]. -/
def iouArr (x y : FVec Ideal A4 .f32) : FVec Ideal A2 .f32 := fun j =>
  quotient (interAt x y (j 0) (j 1)) (unionAt x y (j 0) (j 1)) (targetAt y (j 0) (j 1))
def validArr (y : FVec Ideal A4 .f32) : FVec Ideal A2 .f32 := fun j => flag (targetAt y (j 0) (j 1))

end Cert.MaskIoU

end
-- ==== Proof.Fold.lean ====
/-
  Accumulating a sum over 512 rows in eight steps of 64 rows.

  The grid's 64 points run over 8 batch tiles (n / 8) and, innermost, 8 row tiles (n % 8). A quantity that, at a pair
  (bb, ch) of its batch tile, restarts from zero at every first row tile and otherwise adds to what the point before
  left the sum of its own 64 rows × 512 lanes of an array's entries, holds after the last row tile the sum of that
  array over all 512 × 512 positions of the pair: the partial sums are sums over initial segments of the rows, and
  a segment of 64·k rows followed by 64 more is the segment of 64·(k+1) rows.
-/
import proofs.«175206_j44796508897918_1_alg».proof.Proof.Spec

noncomputable section

namespace Cert.MaskIoU

open Idealize.ShloMosaic Idealize.ShloMosaic.ValueIdx

/-- The batch entry that row bb of point n's batch tile is, and the row that row r of its row tile is. -/
def brow (n : ℕ) (hn : n < 64) (bb : Fin 8) : Fin 64 := ⟨8 * (n / 8) + bb.val, by have := bb.isLt; omega⟩
def hrow (n : ℕ) (r : Fin 64) : Fin 512 := ⟨64 * (n % 8) + r.val, by have := r.isLt; have := Nat.mod_lt n (show 0 < 8 by decide); omega⟩

/-- One row's sum over its 512 lanes, on row numbers as natural numbers (zero past the array). -/
def rowSum (e : A4.Idx → EReal) (b : Fin 64) (ch : Fin 3) (k : ℕ) : EReal :=
  if hk : k < 512 then ∑ w : Fin 512, e (ix4 b ch ⟨k, hk⟩ w) else 0

theorem rowSum_hrow (e : A4.Idx → EReal) (b : Fin 64) (ch : Fin 3) (n : ℕ) (r : Fin 64) :
    rowSum e b ch (64 * (n % 8) + r.val) = ∑ w : Fin 512, e (ix4 b ch (hrow n r) w) := by
  have hk : 64 * (n % 8) + r.val < 512 := (hrow n r).isLt
  unfold rowSum
  rw [dif_pos hk]
  rfl

/-- The sum over all rows, as a sum over the row numbers below 512. -/
theorem sumHW_eq_range (e : A4.Idx → EReal) (b : Fin 64) (ch : Fin 3) :
    sumHW e b ch = ∑ k ∈ Finset.range 512, rowSum e b ch k := by
  unfold sumHW
  rw [← Fin.sum_univ_eq_sum_range (fun k => rowSum e b ch k) 512]
  refine Finset.sum_congr rfl fun h _ => ?_
  unfold rowSum
  rw [dif_pos h.isLt]

/-- The accumulation: restarted at every n ≡ 0 (mod 8), adding each point's 64 rows, complete at n ≡ 7 (mod 8). -/
theorem fold_rows (e : A4.Idx → EReal) (S : (n : ℕ) → n < 64 → B2.Idx → EReal)
    (hS : ∀ (n : ℕ) (h : n < 64) (bb : Fin 8) (ch : Fin 3),
      S n h (ix2 bb ch) = (if n % 8 = 0 then 0 else S (n - 1) (by omega) (ix2 bb ch))
        + ∑ r : Fin 64, ∑ w : Fin 512, e (ix4 (brow n h bb) ch (hrow n r) w))
    (n : ℕ) (h : n < 64) (h7 : n % 8 = 7) (bb : Fin 8) (ch : Fin 3) :
    S n h (ix2 bb ch) = sumHW e (brow n h bb) ch := by
  -- after point n the pair holds the sum over the first 64 (n % 8 + 1) rows
  have part : ∀ (n : ℕ) (h : n < 64) (bb : Fin 8) (ch : Fin 3),
      S n h (ix2 bb ch) = ∑ k ∈ Finset.range (64 * (n % 8 + 1)), rowSum e (brow n h bb) ch k := by
    intro n
    induction n with
    | zero =>
      intro h bb ch
      rw [hS 0 h bb ch, if_pos (by decide), zero_add]
      show _ = ∑ k ∈ Finset.range 64, rowSum e (brow 0 h bb) ch k
      rw [← Fin.sum_univ_eq_sum_range (fun k => rowSum e (brow 0 h bb) ch k) 64]
      refine Finset.sum_congr rfl fun r _ => ?_
      have := rowSum_hrow e (brow 0 h bb) ch 0 r
      simp only [Nat.zero_mod, Nat.mul_zero, Nat.zero_add] at this
      exact this.symm
    | succ k ih =>
      intro h bb ch
      have hk : k < 64 := by omega
      rw [hS (k + 1) h bb ch]
      have hblock : ∑ r : Fin 64, ∑ w : Fin 512, e (ix4 (brow (k + 1) h bb) ch (hrow (k + 1) r) w)
          = ∑ x ∈ Finset.range 64, rowSum e (brow (k + 1) h bb) ch (64 * ((k + 1) % 8) + x) := by
        rw [← Fin.sum_univ_eq_sum_range (fun x => rowSum e (brow (k + 1) h bb) ch (64 * ((k + 1) % 8) + x)) 64]
        exact Finset.sum_congr rfl fun r _ => (rowSum_hrow e _ ch (k + 1) r).symm
      rw [hblock]
      by_cases h0 : (k + 1) % 8 = 0
      · rw [if_pos h0, zero_add, h0]
        simp only [Nat.mul_zero, Nat.zero_add, Nat.mul_one]
      · rw [if_neg h0]
        have e1 : k % 8 + 1 = (k + 1) % 8 := by omega
        have e2 : brow k hk bb = brow (k + 1) h bb := by
          unfold brow
          exact Fin.ext (by show 8 * (k / 8) + bb.val = 8 * ((k + 1) / 8) + bb.val; omega)
        show S k _ (ix2 bb ch) + _ = _
        rw [ih hk bb ch, e1, e2, Nat.mul_add, Nat.mul_one, Finset.sum_range_add]
  rw [part n h bb ch, h7, sumHW_eq_range]

end Cert.MaskIoU

end
-- ==== Proof.KernelSums.lean ====
/-
  The kernel's arithmetic over the extended reals, and its running sums in closed form.

  Entry by entry: a bit widened to a word and converted signed is the indicator "above one half"; each running sum's
  update adds to the previous value the block's double sum, over its 64 rows and 512 lanes, of the indicators' product,
  of their maximum, or of the target's indicator; the zero blocks are zero; the finishing selects are the guarded
  quotient, and the converted compare is the flag. A point's input blocks are the entries of the whole arrays at batch
  tile t / 8 and row tile t % 8. So each running sum obeys the recurrence "restart at a first row tile, else add this
  tile's 64 rows", and after a batch tile's last row tile it is the size of the intersection, of the union, or of the
  target at every pair of the tile.
-/
import proofs.«175206_j44796508897918_1_alg».proof.Proof.KernelAcc
import proofs.«175206_j44796508897918_1_alg».proof.Proof.Sums
import proofs.«175206_j44796508897918_1_alg».proof.Proof.Target
import proofs.«175206_j44796508897918_1_alg».proof.Proof.Fold

noncomputable section

namespace Cert.KernelIdeal.Acc

open Cert.KernelIdeal Cert.KernelIdeal.Gen Cert.MaskIoU
open Idealize.ShloMosaic Idealize.ShloMosaic.TcCoe Idealize.SL.Sem Idealize.ShloMosaic.ValueIdx
open Idealize.ShloMosaic.Pipeline (Dat)

/-! ## One point's arithmetic at an entry -/

/-- The indicators of the two input blocks. -/
theorem pay9_apply (v : FVec Ideal S8x3x64x512 .f32) (j : S8x3x64x512.Idx) : k0_pay9 v j = bit (v j) := by
  unfold k0_pay9
  exact congrFun (sitofp_extui_eq_uitofp _ _) j

theorem pay10_apply (v : FVec Ideal S8x3x64x512 .f32) (j : S8x3x64x512.Idx) : k0_pay10 v j = bit (v j) := by
  unfold k0_pay10
  exact congrFun (sitofp_extui_eq_uitofp _ _) j

/-- The three updates: the previous value plus the block's double sum. -/
theorem pay13_apply (x0 x1 : FVec Ideal S8x3x64x512 .f32) (p : FVec Ideal S8x3 .f32) (bb : Fin 8) (ch : Fin 3) :
    k0_pay13 x0 x1 p (ix2 bb ch)
      = p (ix2 bb ch) + ∑ r : Fin 64, ∑ w : Fin 512, bit (x0 (ix4 bb ch r w)) * bit (x1 (ix4 bb ch r w)) := by
  unfold k0_pay13
  simp only [shapeCast_self, addf_apply]
  refine congrArg (p (ix2 bb ch) + ·) ((blockSum_apply _ _ _ _ _ _ _ _ bb ch).trans ?_)
  refine Finset.sum_congr rfl fun r _ => Finset.sum_congr rfl fun w _ => ?_
  rw [mulf_apply, pay9_apply, pay10_apply]

theorem pay1_apply (x0 x1 : FVec Ideal S8x3x64x512 .f32) (p : FVec Ideal S8x3 .f32) (bb : Fin 8) (ch : Fin 3) :
    k0_pay1 (k0_pay11 x0 x1) p (ix2 bb ch)
      = p (ix2 bb ch) + ∑ r : Fin 64, ∑ w : Fin 512, max (bit (x0 (ix4 bb ch r w))) (bit (x1 (ix4 bb ch r w))) := by
  unfold k0_pay1 k0_pay11
  simp only [shapeCast_self, addf_apply]
  refine congrArg (p (ix2 bb ch) + ·) ((blockSum_apply _ _ _ _ _ _ _ _ bb ch).trans ?_)
  refine Finset.sum_congr rfl fun r _ => Finset.sum_congr rfl fun w _ => ?_
  rw [maximumf_apply, pay9_apply, pay10_apply]

theorem pay2_apply (x1 : FVec Ideal S8x3x64x512 .f32) (p : FVec Ideal S8x3 .f32) (bb : Fin 8) (ch : Fin 3) :
    k0_pay2 (k0_pay12 x1) p (ix2 bb ch)
      = p (ix2 bb ch) + ∑ r : Fin 64, ∑ w : Fin 512, bit (x1 (ix4 bb ch r w)) := by
  unfold k0_pay2 k0_pay12
  simp only [shapeCast_self, addf_apply]
  refine congrArg (p (ix2 bb ch) + ·) ((blockSum_apply _ _ _ _ _ _ _ _ bb ch).trans ?_)
  refine Finset.sum_congr rfl fun r _ => Finset.sum_congr rfl fun w _ => ?_
  rw [pay10_apply]

/-- The zero blocks a first row tile stores. -/
theorem pay6_apply (j : S8x3.Idx) : k0_pay6 (F := Ideal) j = 0 := by
  unfold k0_pay6
  simp only [shapeCast_self]
  exact Ideal.ofBits_zero_f32
theorem pay7_apply (j : S8x3.Idx) : k0_pay7 (F := Ideal) j = 0 := by
  unfold k0_pay7
  simp only [shapeCast_self]
  exact Ideal.ofBits_zero_f32
theorem pay8_apply (j : S8x3.Idx) : k0_pay8 (F := Ideal) j = 0 := by
  unfold k0_pay8
  simp only [shapeCast_self]
  exact Ideal.ofBits_zero_f32

/-- The finishing selects are the guarded quotient of the three totals, and the converted compare is the flag. -/
theorem pay4_apply (u i t : FVec Ideal S8x3 .f32) (j : S8x3.Idx) : k0_pay4 u i t j = quotient (i j) (u j) (t j) := rfl

theorem pay5_apply (t : FVec Ideal S8x3 .f32) (j : S8x3.Idx) : k0_pay5 t j = flag (t j) := by
  unfold k0_pay5
  exact congrFun (sitofp_extui_eq_uitofp _ _) j

/-! ## Which entries of the whole arrays a point's blocks are -/

variable (m : (ℓ : Loc nD τ sig) → Buf (Elt Ideal) ℓ)

/-- The two argument arrays, at their literal type. -/
abbrev xarr (c : Dev nD) : FVec Ideal S64x3x512x512 .f32 := m ((c.tc : Thread nD τ).loc main_arg0)
abbrev yarr (c : Dev nD) : FVec Ideal S64x3x512x512 .f32 := m ((c.tc : Thread nD τ).loc main_arg1)

theorem lt64 (t : Fin cfg0.N) : t.val < 64 := lt_of_lt_of_eq t.isLt N_0

/-- Point t's blocks: batch tile t / 8 and row tile t % 8 of the inputs, batch tile t / 8 of the outputs. -/
theorem idx_facts : ∀ t : Fin cfg0.N,
    (win0_0.index t 0 = t.val / 8 ∧ win0_0.index t 1 = 0 ∧ win0_0.index t 2 = t.val % 8 ∧ win0_0.index t 3 = 0)
    ∧ (win0_1.index t 0 = t.val / 8 ∧ win0_1.index t 1 = 0 ∧ win0_1.index t 2 = t.val % 8 ∧ win0_1.index t 3 = 0)
    ∧ (win0_2.index t 0 = t.val / 8 ∧ win0_2.index t 1 = 0) ∧ (win0_3.index t 0 = t.val / 8 ∧ win0_3.index t 1 = 0) :=
  (by decide +kernel : ∀ t : Fin grid0.N, _)

/-- Entry (bb, ch, r, w) of point t's block is entry (8 (t / 8) + bb, ch, 64 (t % 8) + r, w) of the whole array. -/
theorem xblk_apply (c : Dev nD) (t : Fin cfg0.N) (bb : Fin 8) (ch : Fin 3) (r : Fin 64) (w : Fin 512) :
    xblk m c t (ix4 bb ch r w) = xarr m c (ix4 (brow t.val (lt64 t) bb) ch (hrow t.val r) w) := by
  have hi := (idx_facts t).1
  unfold xblk iblk
  rw [View.read_apply]
  show V m c main_arg0 _ = _
  rw [V_main_arg0]
  refine congrArg (m ((c.tc : Thread nD τ).loc main_arg0)) (funext fun a => Fin.ext ?_)
  match a with
  | ⟨0, _⟩ => show win0_0.index t 0 * 8 + 1 * bb.val = 8 * (t.val / 8) + bb.val; rw [hi.1]; omega
  | ⟨1, _⟩ => show win0_0.index t 1 * 3 + 1 * ch.val = ch.val; rw [hi.2.1]; omega
  | ⟨2, _⟩ => show win0_0.index t 2 * 64 + 1 * r.val = 64 * (t.val % 8) + r.val; rw [hi.2.2.1]; omega
  | ⟨3, _⟩ => show win0_0.index t 3 * 512 + 1 * w.val = w.val; rw [hi.2.2.2]; omega

theorem yblk_apply (c : Dev nD) (t : Fin cfg0.N) (bb : Fin 8) (ch : Fin 3) (r : Fin 64) (w : Fin 512) :
    yblk m c t (ix4 bb ch r w) = yarr m c (ix4 (brow t.val (lt64 t) bb) ch (hrow t.val r) w) := by
  have hi := (idx_facts t).2.1
  unfold yblk iblk
  rw [View.read_apply]
  show V m c main_arg1 _ = _
  rw [V_main_arg1]
  refine congrArg (m ((c.tc : Thread nD τ).loc main_arg1)) (funext fun a => Fin.ext ?_)
  match a with
  | ⟨0, _⟩ => show win0_1.index t 0 * 8 + 1 * bb.val = 8 * (t.val / 8) + bb.val; rw [hi.1]; omega
  | ⟨1, _⟩ => show win0_1.index t 1 * 3 + 1 * ch.val = ch.val; rw [hi.2.1]; omega
  | ⟨2, _⟩ => show win0_1.index t 2 * 64 + 1 * r.val = 64 * (t.val % 8) + r.val; rw [hi.2.2.1]; omega
  | ⟨3, _⟩ => show win0_1.index t 3 * 512 + 1 * w.val = w.val; rw [hi.2.2.2]; omega

/-! ## The running sums in closed form -/

/-- The running inter obeys the accumulation's recurrence over the whole arrays' entries, -/
theorem inter_step (c : Dev nD) (n : ℕ) (h : n < 64) (bb : Fin 8) (ch : Fin 3) :
    (sums m c n (lt_of_lt_of_eq h N_0.symm)).1 (ix2 bb ch)
      = (if n % 8 = 0 then 0 else (sums m c (n - 1) (lt_of_lt_of_eq (show n - 1 < 64 by omega) N_0.symm)).1 (ix2 bb ch))
        + ∑ r : Fin 64, ∑ w : Fin 512, (fun i => bit (xarr m c i) * bit (yarr m c i)) (ix4 (brow n h bb) ch (hrow n r) w) := by
  cases n with
  | zero =>
    show k0_pay13 (xblk m c ⟨0, _⟩) (yblk m c ⟨0, _⟩) (k0_pay6 (F := Ideal)) (ix2 bb ch) = _
    rw [pay13_apply, pay6_apply, if_pos (by decide)]
    simp only [xblk_apply, yblk_apply]
  | succ k =>
    show k0_pay13 (xblk m c ⟨k + 1, _⟩) (yblk m c ⟨k + 1, _⟩) (if (k + 1) % 8 = 0 then zero3 else sums m c k _).1 (ix2 bb ch) = _
    rw [pay13_apply]
    simp only [xblk_apply, yblk_apply]
    by_cases h0 : (k + 1) % 8 = 0
    · rw [if_pos h0, if_pos h0]
      show k0_pay6 (F := Ideal) (ix2 bb ch) + _ = _
      rw [pay6_apply]
    · rw [if_neg h0, if_neg h0]
      rfl

/-- so at a batch tile's last row tile it is the inter's size at the pair. -/
theorem inter_total (c : Dev nD) (t : Fin cfg0.N) (h7 : t.val % 8 = 7) (bb : Fin 8) (ch : Fin 3) :
    (sums m c t.val t.isLt).1 (ix2 bb ch) = interAt (xarr m c) (yarr m c) (brow t.val (lt64 t) bb) ch :=
  fold_rows (fun i => bit (xarr m c i) * bit (yarr m c i)) (fun n h => (sums m c n (lt_of_lt_of_eq h N_0.symm)).1)
    (fun n h bb ch => inter_step m c n h bb ch) t.val (lt64 t) h7 bb ch

/-- The running union obeys the accumulation's recurrence over the whole arrays' entries, -/
theorem union_step (c : Dev nD) (n : ℕ) (h : n < 64) (bb : Fin 8) (ch : Fin 3) :
    (sums m c n (lt_of_lt_of_eq h N_0.symm)).2.1 (ix2 bb ch)
      = (if n % 8 = 0 then 0 else (sums m c (n - 1) (lt_of_lt_of_eq (show n - 1 < 64 by omega) N_0.symm)).2.1 (ix2 bb ch))
        + ∑ r : Fin 64, ∑ w : Fin 512, (fun i => max (bit (xarr m c i)) (bit (yarr m c i))) (ix4 (brow n h bb) ch (hrow n r) w) := by
  cases n with
  | zero =>
    show k0_pay1 (k0_pay11 (xblk m c ⟨0, _⟩) (yblk m c ⟨0, _⟩)) (k0_pay7 (F := Ideal)) (ix2 bb ch) = _
    rw [pay1_apply, pay7_apply, if_pos (by decide)]
    simp only [xblk_apply, yblk_apply]
  | succ k =>
    show k0_pay1 (k0_pay11 (xblk m c ⟨k + 1, _⟩) (yblk m c ⟨k + 1, _⟩)) (if (k + 1) % 8 = 0 then zero3 else sums m c k _).2.1 (ix2 bb ch) = _
    rw [pay1_apply]
    simp only [xblk_apply, yblk_apply]
    by_cases h0 : (k + 1) % 8 = 0
    · rw [if_pos h0, if_pos h0]
      show k0_pay7 (F := Ideal) (ix2 bb ch) + _ = _
      rw [pay7_apply]
    · rw [if_neg h0, if_neg h0]
      rfl

/-- so at a batch tile's last row tile it is the union's size at the pair. -/
theorem union_total (c : Dev nD) (t : Fin cfg0.N) (h7 : t.val % 8 = 7) (bb : Fin 8) (ch : Fin 3) :
    (sums m c t.val t.isLt).2.1 (ix2 bb ch) = unionAt (xarr m c) (yarr m c) (brow t.val (lt64 t) bb) ch :=
  fold_rows (fun i => max (bit (xarr m c i)) (bit (yarr m c i))) (fun n h => (sums m c n (lt_of_lt_of_eq h N_0.symm)).2.1)
    (fun n h bb ch => union_step m c n h bb ch) t.val (lt64 t) h7 bb ch

/-- The running target obeys the accumulation's recurrence over the whole arrays' entries, -/
theorem target_step (c : Dev nD) (n : ℕ) (h : n < 64) (bb : Fin 8) (ch : Fin 3) :
    (sums m c n (lt_of_lt_of_eq h N_0.symm)).2.2 (ix2 bb ch)
      = (if n % 8 = 0 then 0 else (sums m c (n - 1) (lt_of_lt_of_eq (show n - 1 < 64 by omega) N_0.symm)).2.2 (ix2 bb ch))
        + ∑ r : Fin 64, ∑ w : Fin 512, (fun i => bit (yarr m c i)) (ix4 (brow n h bb) ch (hrow n r) w) := by
  cases n with
  | zero =>
    show k0_pay2 (k0_pay12 (yblk m c ⟨0, _⟩)) (k0_pay8 (F := Ideal)) (ix2 bb ch) = _
    rw [pay2_apply, pay8_apply, if_pos (by decide)]
    simp only [xblk_apply, yblk_apply]
  | succ k =>
    show k0_pay2 (k0_pay12 (yblk m c ⟨k + 1, _⟩)) (if (k + 1) % 8 = 0 then zero3 else sums m c k _).2.2 (ix2 bb ch) = _
    rw [pay2_apply]
    simp only [xblk_apply, yblk_apply]
    by_cases h0 : (k + 1) % 8 = 0
    · rw [if_pos h0, if_pos h0]
      show k0_pay8 (F := Ideal) (ix2 bb ch) + _ = _
      rw [pay8_apply]
    · rw [if_neg h0, if_neg h0]
      rfl

/-- so at a batch tile's last row tile it is the target's size at the pair. -/
theorem target_total (c : Dev nD) (t : Fin cfg0.N) (h7 : t.val % 8 = 7) (bb : Fin 8) (ch : Fin 3) :
    (sums m c t.val t.isLt).2.2 (ix2 bb ch) = targetAt (yarr m c) (brow t.val (lt64 t) bb) ch :=
  fold_rows (fun i => bit (yarr m c i)) (fun n h => (sums m c n (lt_of_lt_of_eq h N_0.symm)).2.2)
    (fun n h bb ch => target_step m c n h bb ch) t.val (lt64 t) h7 bb ch

/-- The three totals at any entry of the block. -/
theorem totals (c : Dev nD) (t : Fin cfg0.N) (h7 : t.val % 8 = 7) (j : S8x3.Idx) :
    (sums m c t.val t.isLt).1 j = interAt (xarr m c) (yarr m c) (brow t.val (lt64 t) (j 0)) (j 1)
    ∧ (sums m c t.val t.isLt).2.1 j = unionAt (xarr m c) (yarr m c) (brow t.val (lt64 t) (j 0)) (j 1)
    ∧ (sums m c t.val t.isLt).2.2 j = targetAt (yarr m c) (brow t.val (lt64 t) (j 0)) (j 1) := by
  have e := eq_ix2 j
  refine ⟨?_, ?_, ?_⟩
  · exact (congrArg (fun k => (sums m c t.val t.isLt).1 k) e).trans (inter_total m c t h7 (j 0) (j 1))
  · exact (congrArg (fun k => (sums m c t.val t.isLt).2.1 k) e).trans (union_total m c t h7 (j 0) (j 1))
  · exact (congrArg (fun k => (sums m c t.val t.isLt).2.2 k) e).trans (target_total m c t h7 (j 0) (j 1))

end Cert.KernelIdeal.Acc

end
-- ==== Proof.KernelFinal.lean ====
/-
  The two arrays the region leaves: the per-pair quotients and the per-pair flags.

  An output block is written back only after a batch tile's last row tile, and holds there the guarded quotient (the
  flag) of the three completed totals of the tile's 8 × 3 pairs; batch tile t / 8 covers the batch entries
  8 (t / 8) … 8 (t / 8) + 7, so the eight write-backs tile the [64, 3] array and it ends holding, pair by pair, the
  quotient (the flag) of the pair's three sizes.
-/
import proofs.«175206_j44796508897918_1_alg».proof.Proof.KernelSums

noncomputable section

namespace Cert.KernelIdeal.Final

open Cert.KernelIdeal Cert.KernelIdeal.Gen Cert.KernelIdeal.Acc Cert.MaskIoU
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The arrays of quotients and of flags, as contents of the two result arrays of the region. -/
abbrev iouOut (c : Dev nD) : Buf (Elt Ideal) ((c.tc : Thread nD τ).loc main_v0_0) := iouArr (xarr m c) (yarr m c)
abbrev validOut (c : Dev nD) : Buf (Elt Ideal) ((c.tc : Thread nD τ).loc main_v0_1) := validArr (yarr m c)

/-- The guarded quotient of a last row tile's totals at entry k of its block is the quotients' array at the pair that
    entry is: batch entry 8 (t / 8) + k₀, channel k₁. -/
theorem quot_at (c : Dev nD) (t : Fin cfg0.N) (h7 : t.val % 8 = 7) (k : S8x3.Idx) (i : S64x3.Idx)
    (h0 : (i 0).val = 8 * (t.val / 8) + (k 0).val) (h1 : (i 1).val = (k 1).val) :
    k0_pay4 (sums m c t.val t.isLt).2.1 (sums m c t.val t.isLt).1 (sums m c t.val t.isLt).2.2 k
      = iouOut m c i := by
  obtain ⟨eI, eU, eT⟩ := totals m c t h7 k
  rw [pay4_apply, eI, eU, eT]
  have e0 : i 0 = brow t.val (lt64 t) (k 0) := Fin.ext h0
  have e1 : i 1 = k 1 := Fin.ext h1
  show _ = iouArr (xarr m c) (yarr m c) i
  unfold iouArr
  rw [e0, e1]

/-- The same for the flag. -/
theorem flag_at (c : Dev nD) (t : Fin cfg0.N) (h7 : t.val % 8 = 7) (k : S8x3.Idx) (i : S64x3.Idx)
    (h0 : (i 0).val = 8 * (t.val / 8) + (k 0).val) (h1 : (i 1).val = (k 1).val) :
    k0_pay5 (sums m c t.val t.isLt).2.2 k = validOut m c i := by
  obtain ⟨eI, eU, eT⟩ := totals m c t h7 k
  rw [pay5_apply, eT]
  have e0 : i 0 = brow t.val (lt64 t) (k 0) := Fin.ext h0
  have e1 : i 1 = k 1 := Fin.ext h1
  show _ = validArr (yarr m c) i
  unfold validArr
  rw [e0, e1]

/-- Reading an array through a point's output block is reading it at the block's entries. -/
theorem read2 (c : Dev nD) (G : Buf (Elt Ideal) ((c.tc : Thread nD τ).loc main_v0_0)) (t : Fin cfg0.N)
    (j : ((cfg0.win 2).xblock (grid0.coords t)).Idx) :
    ((cfg0.win 2).blk t).view.read (Elt Ideal) G j = G (((cfg0.win 2).blk t).view.emb j) := rfl
theorem read3 (c : Dev nD) (G : Buf (Elt Ideal) ((c.tc : Thread nD τ).loc main_v0_1)) (t : Fin cfg0.N)
    (j : ((cfg0.win 3).xblock (grid0.coords t)).Idx) :
    ((cfg0.win 3).blk t).view.read (Elt Ideal) G j = G (((cfg0.win 3).blk t).view.emb j) := rfl

/-- What a last row tile writes back into the quotients' array is its block of the quotients. -/
theorem flushed2_eq (c : Dev nD) (t : Fin cfg0.N) (hf : (cfg0.win 2).flush t = true) :
    (dats m 0 c).flushed 2 t = ((cfg0.win 2).blk t).view.read (Elt Ideal) (iouOut m c) := by
  have h7 : t.val % 8 = 7 := (flush0_2 t).mp hf
  have hi := (idx_facts t).2.2.1
  show (cfg0.win 2).cut (grid0.coords t) ((dats m 0 c).after 2 t) = _
  rw [after0_2, (outs_last m c t h7).1]
  have hX := quot_at m c t h7
  generalize k0_pay4 (sums m c t.val t.isLt).2.1 (sums m c t.val t.isLt).1 (sums m c t.val t.isLt).2.2 = X at hX ⊢
  generalize iouOut m c = G at hX ⊢
  funext j
  refine (hX ((cfg0.win 2).xinj (grid0.coords t) j) (((cfg0.win 2).blk t).view.emb j) ?_ ?_).trans (read2 c G t j).symm
  · show win0_2.index t 0 * 8 + 1 * (j 0).val = 8 * (t.val / 8) + (j 0).val
    rw [hi.1]; omega
  · show win0_2.index t 1 * 3 + 1 * (j 1).val = (j 1).val
    rw [hi.2]; omega

/-- The same for the flags. -/
theorem flushed3_eq (c : Dev nD) (t : Fin cfg0.N) (hf : (cfg0.win 3).flush t = true) :
    (dats m 0 c).flushed 3 t = ((cfg0.win 3).blk t).view.read (Elt Ideal) (validOut m c) := by
  have h7 : t.val % 8 = 7 := (flush0_3 t).mp hf
  have hi := (idx_facts t).2.2.2
  show (cfg0.win 3).cut (grid0.coords t) ((dats m 0 c).after 3 t) = _
  rw [after0_3, (outs_last m c t h7).2]
  have hX := flag_at m c t h7
  generalize k0_pay5 (sums m c t.val t.isLt).2.2 = X at hX ⊢
  generalize validOut m c = G at hX ⊢
  funext j
  refine (hX ((cfg0.win 3).xinj (grid0.coords t) j) (((cfg0.win 3).blk t).view.emb j) ?_ ?_).trans (read3 c G t j).symm
  · show win0_3.index t 0 * 8 + 1 * (j 0).val = 8 * (t.val / 8) + (j 0).val
    rw [hi.1]; omega
  · show win0_3.index t 1 * 3 + 1 * (j 1).val = (j 1).val
    rw [hi.2]; omega

/-- The last row tile of the batch tile that holds batch entry b. -/
def lastPoint (b : Fin 64) : Fin cfg0.N := ⟨8 * (b.val / 8) + 7, by rw [show cfg0.N = 64 from N_0]; have := b.isLt; omega⟩

/-- Every pair of the quotients' array is in the block some last row tile writes back. -/
theorem cover2 (i : S64x3.Idx) :
    ∃ t : Fin cfg0.N, (cfg0.win 2).flush t = true ∧ i ∈ ((cfg0.win 2).blk t).view.set := by
  refine ⟨lastPoint (i 0), (flush0_2 _).mpr (by show (8 * ((i 0).val / 8) + 7) % 8 = 7; omega), ?_⟩
  have hi := (idx_facts (lastPoint (i 0))).2.2.1
  have hv : (lastPoint (i 0)).val = 8 * ((i 0).val / 8) + 7 := rfl
  show i ∈ ((View.whole main_v0_0).slice (win0_2.rect (lastPoint (i 0)))).set
  rw [View.set_slice_whole, Rect.mem_set_unit]
  intro a
  have h0 : (i 0).val < 64 := (i 0).isLt
  have h1 : (i 1).val < 3 := (i 1).isLt
  match a with
  | ⟨0, _⟩ =>
    show win0_2.index (lastPoint (i 0)) 0 * 8 ≤ (i 0).val ∧ (i 0).val < win0_2.index (lastPoint (i 0)) 0 * 8 + 8
    rw [hi.1, hv]; omega
  | ⟨1, _⟩ =>
    show win0_2.index (lastPoint (i 0)) 1 * 3 ≤ (i 1).val ∧ (i 1).val < win0_2.index (lastPoint (i 0)) 1 * 3 + 3
    rw [hi.2]; omega

theorem cover3 (i : S64x3.Idx) :
    ∃ t : Fin cfg0.N, (cfg0.win 3).flush t = true ∧ i ∈ ((cfg0.win 3).blk t).view.set := by
  refine ⟨lastPoint (i 0), (flush0_3 _).mpr (by show (8 * ((i 0).val / 8) + 7) % 8 = 7; omega), ?_⟩
  have hi := (idx_facts (lastPoint (i 0))).2.2.2
  have hv : (lastPoint (i 0)).val = 8 * ((i 0).val / 8) + 7 := rfl
  show i ∈ ((View.whole main_v0_1).slice (win0_3.rect (lastPoint (i 0)))).set
  rw [View.set_slice_whole, Rect.mem_set_unit]
  intro a
  have h0 : (i 0).val < 64 := (i 0).isLt
  have h1 : (i 1).val < 3 := (i 1).isLt
  match a with
  | ⟨0, _⟩ =>
    show win0_3.index (lastPoint (i 0)) 0 * 8 ≤ (i 0).val ∧ (i 0).val < win0_3.index (lastPoint (i 0)) 0 * 8 + 8
    rw [hi.1, hv]; omega
  | ⟨1, _⟩ =>
    show win0_3.index (lastPoint (i 0)) 1 * 3 ≤ (i 1).val ∧ (i 1).val < win0_3.index (lastPoint (i 0)) 1 * 3 + 3
    rw [hi.2]; omega

/-- So the two arrays end holding the quotients and the flags. -/
theorem final2 (c : Dev nD) : (dats m 0 c).arrAt 2 cfg0.N = iouOut m c :=
  (dats m 0 c).arrAt_eq_of_cover 2 (iouOut m c) (flushed2_eq m c) (cover2)

theorem final3 (c : Dev nD) : (dats m 0 c).arrAt 3 cfg0.N = validOut m c :=
  (dats m 0 c).arrAt_eq_of_cover 3 (validOut m c) (flushed3_eq m c) (cover3)

end Cert.KernelIdeal.Final

end
-- ==== Proof.RefValue.lean ====
/-
  The reference's stages are the same functions of the inputs.

  Its three sums over the two trailing axes are the sizes of the intersection, the union and the target at each pair
  (the union through the clipped sum of the two indicators, which on 0/1 values is the larger of the two); its guarded
  quotient and its flag are then the target arrays entry by entry; and its last lines are the shared finishing step.
-/
import proofs.«175206_j44796508897918_1_alg».proof.Proof.RefRun
import proofs.«175206_j44796508897918_1_alg».proof.Proof.RefRead
import proofs.«175206_j44796508897918_1_alg».proof.Proof.Sums
import proofs.«175206_j44796508897918_1_alg».proof.Proof.Target

noncomputable section

namespace Cert.ReferenceIdeal.RefValue

open Cert.ReferenceIdeal Cert.ReferenceIdeal.Gen Cert.ReferenceIdeal.ReadP Cert.MaskIoU
open Idealize.ShloMosaic Idealize.ShloMosaic.TcCoe Idealize.SL.Sem Idealize.ShloMosaic.ValueIdx

/-- The reference's per-channel averages are the shared finishing step of its quotients and its flags. -/
theorem means_eq {F : FTy → Type} [FloatOps F] (x y : (⟨S64x3x512x512, .f32⟩ : BufTy).Contents (Elt F)) :
    val_main_v31 (F := F) x y
      = meanIoU reducesTo_S64x3_S3_d0 h_S_ bcast_S_S3 (val_main_v21 (F := F) x y) (val_main_v23 (F := F) y) := rfl

variable (x y : FVec Ideal S64x3x512x512 .f32)

/-- The indicators and their combinations, entry by entry. -/
theorem v2_apply (i : S64x3x512x512.Idx) : val_main_v2 (F := Ideal) x i = bit (x i) := rfl
theorem v5_apply (i : S64x3x512x512.Idx) : val_main_v5 (F := Ideal) y i = bit (y i) := rfl
theorem v6_apply (i : S64x3x512x512.Idx) : val_main_v6 (F := Ideal) x y i = bit (x i) * bit (y i) := rfl
theorem v9_apply (i : S64x3x512x512.Idx) : val_main_v9 (F := Ideal) x y i = max (bit (x i)) (bit (y i)) := by
  show min (Ideal.ofBits .f32 0x3F800000#32) (max (Ideal.ofBits .f32 0x00000000#32) (bit (x i) + bit (y i))) = _
  exact clip_add_eq_max _ _ (uitofp_bit_cases _) (uitofp_bit_cases _)

/-- The three sums at a pair. -/
theorem v7_apply (b : Fin 64) (ch : Fin 3) : val_main_v7 (F := Ideal) x y (ix2 b ch) = interAt x y b ch := by
  unfold val_main_v7
  rw [hostSum_apply _ _ _ _ Ideal.ofBits_zero_f32 b ch]
  rfl
theorem v10_apply (b : Fin 64) (ch : Fin 3) : val_main_v10 (F := Ideal) x y (ix2 b ch) = unionAt x y b ch := by
  unfold val_main_v10
  rw [hostSum_apply _ _ _ _ Ideal.ofBits_zero_f32 b ch]
  unfold unionAt sumHW
  exact Finset.sum_congr rfl fun h _ => Finset.sum_congr rfl fun w _ => v9_apply x y _
theorem v11_apply (b : Fin 64) (ch : Fin 3) : val_main_v11 (F := Ideal) y (ix2 b ch) = targetAt y b ch := by
  unfold val_main_v11
  rw [hostSum_apply _ _ _ _ Ideal.ofBits_zero_f32 b ch]
  rfl

/-- The quotients and the flags are the target arrays. -/
theorem v21_eq : val_main_v21 (F := Ideal) x y = iouArr x y := by
  funext j
  have e := eq_ix2 j
  show quotient (val_main_v7 (F := Ideal) x y j) (val_main_v10 (F := Ideal) x y j) (val_main_v11 (F := Ideal) y j) = _
  rw [(congrArg (fun k => val_main_v7 (F := Ideal) x y k) e).trans (v7_apply x y (j 0) (j 1)),
    (congrArg (fun k => val_main_v10 (F := Ideal) x y k) e).trans (v10_apply x y (j 0) (j 1)),
    (congrArg (fun k => val_main_v11 (F := Ideal) y k) e).trans (v11_apply y (j 0) (j 1))]
  rfl

theorem v23_eq : val_main_v23 (F := Ideal) y = validArr y := by
  funext j
  have e := eq_ix2 j
  show flag (val_main_v11 (F := Ideal) y j) = _
  rw [(congrArg (fun k => val_main_v11 (F := Ideal) y k) e).trans (v11_apply y (j 0) (j 1))]
  rfl

end Cert.ReferenceIdeal.RefValue

end
-- ==== Proof.lean ====
/-
  Mean intersection-over-union of thresholded masks: a pipelined kernel against its plain reference, over the
  extended reals.

  Both programs threshold two arrays [64, 3, 512, 512] at one half and, for each of the 64 × 3 pairs (batch entry,
  channel), take the sizes of the intersection, of the union and of the target mask over the 512 × 512 positions; the
  per-pair quotient intersection / union (guarded against an empty union, and set to zero where the target is empty) and
  the per-pair flag "target not empty" are then averaged per channel over the flagged pairs.

  The kernel walks a grid of 8 batch tiles × 8 row tiles: each point adds its block's sums (over 512 lanes, then over
  its 64 rows) to three running sums that restart at every batch tile's first row tile, and the last row tile turns the
  totals into the quotient and the flag of its 8 × 3 pairs. The reference sums each pair's 512 × 512 positions at once,
  and writes the union as the sum of the two indicators clipped to [0, 1]. Over the extended reals the two agree: eight
  segments of 64 rows are the 512 rows (addition there is commutative and associative, so no finiteness is needed), the
  clipped sum of two 0/1 values is the larger of the two, and a bit converted to a float is the same 0 or 1 whether it
  is first widened to a word and read signed or read unsigned as it is. The host operations after the kernel's region
  and the reference's last lines are the same finishing step, word for word, so the three results agree as soon as the
  two [64, 3] arrays do. The ideal pass rewrote no operation of the kernel, so its idealization is its own text.
-/
import proofs.«175206_j44796508897918_1_alg».proof.Defs
import proofs.«175206_j44796508897918_1_alg».proof.Proof.Gen.Kernel
import proofs.«175206_j44796508897918_1_alg».proof.Proof.Gen.Kernel.Skeleton
import proofs.«175206_j44796508897918_1_alg».proof.Proof.Gen.Kernel.Launch
import proofs.«175206_j44796508897918_1_alg».proof.Proof.Gen.Kernel.Points
import proofs.«175206_j44796508897918_1_alg».proof.Proof.Gen.Kernel.Frame
import proofs.«175206_j44796508897918_1_alg».proof.Proof.Gen.KernelIdeal
import proofs.«175206_j44796508897918_1_alg».proof.Proof.Gen.KernelIdeal.Skeleton
import proofs.«175206_j44796508897918_1_alg».proof.Proof.Gen.KernelIdeal.Launch
import proofs.«175206_j44796508897918_1_alg».proof.Proof.Gen.KernelIdeal.Points
import proofs.«175206_j44796508897918_1_alg».proof.Proof.Gen.KernelIdeal.Frame
import proofs.«175206_j44796508897918_1_alg».proof.Proof.Gen.ReferenceIdeal
import proofs.«175206_j44796508897918_1_alg».proof.Proof.Gen.Pre_finite_inputs
import proofs.«175206_j44796508897918_1_alg».proof.Proof.Tail
import proofs.«175206_j44796508897918_1_alg».proof.Proof.KernelFinal
import proofs.«175206_j44796508897918_1_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference, a straight line of host operations, runs and leaves its arguments unchanged. -/
theorem frame_ri : Cert.frame_ReferenceIdeal := fun m ρ _ =>
  (θ_run Cert.ReferenceIdeal.defs _ _).mono (fun _ h c => ⟨(h c).2.2.2.1, (h c).2.2.2.2⟩)
    (Cert.ReferenceIdeal.ValueP.run (F := Ideal) m ρ)

/-- The finishing step depends only on the two arrays it averages. -/
theorem meanIoU_congr (hr hr' : Cert.MaskIoU.A2.ReducesTo ([0] : List (Fin 2)) Cert.MaskIoU.C1)
    (hs hs' : 0 < Cert.MaskIoU.Z0.numel) (hb hb' : Cert.MaskIoU.Z0.BroadcastsInDim Cert.MaskIoU.C1 (![] : Fin 0 → Fin 1))
    (a a' b b' : FVec Ideal Cert.MaskIoU.A2 .f32) (ea : a = a') (eb : b = b') :
    Cert.MaskIoU.meanIoU hr hs hb a b = Cert.MaskIoU.meanIoU hr' hs' hb' a' b' := by
  subst ea; subst eb; rfl

/-- The reference's per-channel averages, of arguments that agree with the kernel's, are the averages of the two arrays
    the kernel's region leaves: both pairs of arrays are the quotients and the flags of the same inputs. -/
theorem means_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.ReferenceIdeal.ReadP.val_main_v31 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
      = Cert.KernelIdeal.Tail.means m c := by
  unfold Cert.KernelIdeal.Tail.means
  rw [Cert.KernelIdeal.Final.final2 m c, Cert.KernelIdeal.Final.final3 m c,
    Cert.ReferenceIdeal.RefValue.means_eq, Cert.ReferenceIdeal.RefValue.v21_eq, Cert.ReferenceIdeal.RefValue.v23_eq]
  refine meanIoU_congr _ _ _ _ _ _ _ _ _ _ ?_ ?_
  · rw [h0, h1]
  · rw [h1]

/-- At the extended reals the idealized kernel and the idealized reference, run from memories that agree on the two
    arguments, both end, with equal results: each result is one channel of the same per-channel average. -/
theorem algebraic : Cert.algebraic_KernelIdeal_ReferenceIdeal := by
  intro m ρ m' ρ' _ hagree
  refine ⟨_, _, _, Cert.KernelIdeal.Tail.run_tail (F := Ideal) m ρ, ?_⟩
  refine (θ_run Cert.ReferenceIdeal.defs _ _).mono (fun _ h c => ?_)
    (Cert.ReferenceIdeal.ValueP.run (F := Ideal) m' ρ')
  obtain ⟨r0, r1, r2, a0, a1⟩ := h c
  have key := means_agree m m' c (hagree c).1 (hagree c).2
  refine ⟨r0.trans ?_, r1.trans ?_, r2.trans ?_, a0, a1⟩
  · rw [Cert.ReferenceIdeal.ReadP.val_main_v33_eq]
    show shapeCast _ (extractStridedSlice _ ![0] (Cert.ReferenceIdeal.ReadP.val_main_v31 (F := Ideal) _ _) _) _ = _
    rw [key]
  · rw [Cert.ReferenceIdeal.ReadP.val_main_v35_eq]
    show shapeCast _ (extractStridedSlice _ ![1] (Cert.ReferenceIdeal.ReadP.val_main_v31 (F := Ideal) _ _) _) _ = _
    rw [key]
  · rw [Cert.ReferenceIdeal.ReadP.val_main_v37_eq]
    show shapeCast _ (extractStridedSlice _ ![2] (Cert.ReferenceIdeal.ReadP.val_main_v31 (F := Ideal) _ _) _) _ = _
    rw [key]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
